-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S50x128 : Shape := ⟨2, ![50, 128]⟩
abbrev S128 : Shape := ⟨1, ![128]⟩
abbrev S128x128 : Shape := ⟨2, ![128, 128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x50 : S_.BroadcastsInDim S1600000x50 (![] : Fin 0 → Fin S1600000x50.rank)
  reducesTo_S1600000x50_S_d0_1 : S1600000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 100000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S1600000x50 .f32) (main_arg4 : FVec F S50x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x50 .f32 := Host.absf main_arg3
  let main_cst_2 : FVec F S_ .f32 := constant S_ .f32 0x7F800000#32
  let main_v10 : FVec F S1600000x50 .f32 := broadcastInDim S1600000x50 ![] bcast_S_S1600000x50 main_cst_2
  let main_v11 : IVec S1600000x50 1 := cmpf .olt main_v9 main_v10
  let main_c_3 : IVec S_ 1 := constantI S_ 1 1#1
  let main_v12 : IVec S_ 1 := (fun x v => Host.reduce IntOp.andi x v reducesTo_S1600000x50_S_d0_1 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg1 main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S50x128 : Shape := ⟨2, ![50, 128]⟩
abbrev S128 : Shape := ⟨1, ![128]⟩
abbrev S128x128 : Shape := ⟨2, ![128, 128]⟩
abbrev S1600000x1 : Shape := ⟨2, ![1600000, 1]⟩
abbrev S1600000x128 : Shape := ⟨2, ![1600000, 128]⟩
abbrev S4000x50 : Shape := ⟨2, ![4000, 50]⟩
abbrev S4000x1 : Shape := ⟨2, ![4000, 1]⟩
abbrev S4000x128 : Shape := ⟨2, ![4000, 128]⟩
abbrev S1x128 : Shape := ⟨2, ![1, 128]⟩
abbrev S5000x128 : Shape := ⟨2, ![5000, 128]⟩
abbrev S1x1600000 : Shape := ⟨2, ![1, 1600000]⟩
abbrev S_ : Shape := ⟨0, ![]⟩
abbrev S1 : Shape := ⟨1, ![1]⟩
abbrev S1x1 : Shape := ⟨2, ![1, 1]⟩

abbrev nBuf : Space → Nat
  | .hbm => 52
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1600000x1, .f32⟩
  | .hbm, ⟨14, _⟩ => ⟨S1600000x128, .f32⟩
  | .hbm, ⟨15, _⟩ => ⟨S128x128, .f32⟩
  | .hbm, ⟨16, _⟩ => ⟨S100000x128, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1, .i32⟩
  | .hbm, ⟨30, _⟩ => ⟨S_, .i32⟩
  | .hbm, ⟨31, _⟩ => ⟨S1600000x1, .i32⟩
  | .hbm, ⟨32, _⟩ => ⟨S1600000x1, .i1⟩
  | .hbm, ⟨33, _⟩ => ⟨S1x1, .i32⟩
  | .hbm, ⟨34, _⟩ => ⟨S1600000x1, .i32⟩
  | .hbm, ⟨35, _⟩ => ⟨S1600000x1, .i1⟩
  | .hbm, ⟨36, _⟩ => ⟨S1600000x1, .i1⟩
  | .hbm, ⟨37, _⟩ => ⟨S_, .i1⟩
  | .hbm, ⟨38, _⟩ => ⟨S1600000, .i1⟩
  | .hbm, ⟨39, _⟩ => ⟨S1600000x128, .f32⟩
  | .hbm, ⟨40, _⟩ => ⟨S1600000x128, .i1⟩
  | .hbm, ⟨41, _⟩ => ⟨S_, .f32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S128x128, .f32⟩
  | .hbm, ⟨51, _⟩ => ⟨S100000x128, .f32⟩
  | .local _ .vmem, ⟨0, _⟩ => ⟨S4000x50, .f32⟩
  | .local _ .vmem, ⟨1, _⟩ => ⟨S4000x50, .f32⟩
  | .local _ .vmem, ⟨2, _⟩ => ⟨S4000x1, .f32⟩
  | .local _ .vmem, ⟨3, _⟩ => ⟨S4000x1, .f32⟩
  | .local _ .vmem, ⟨4, _⟩ => ⟨S50x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S1600000_S1600000x1 : S1600000.ShapeCasts S1600000x1
  inb_S4000x50_S4000x50_0_0 : ∀ a, (![0, 0] : Fin 2 → Nat) a + S4000x50.size a ≤ S4000x50.size a
  h_S4000x50 : 0 < S4000x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  broadcasts_S1x128_S5000x128 : S1x128.Broadcasts S5000x128
  dot_S4000x50_S50x128_S4000x128_1_0_0_1_n_n_wf : DotDims.WF S4000x50 S50x128 S4000x128 [1] [0] [0] [1] [] []
  dot_S4000x128_S128x128_S4000x128_1_0_0_1_n_n_wf : DotDims.WF S4000x128 S128x128 S4000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x50.size a ≤ S1600000x50.size a
  hwx0_0 : ∀ i : grid0.Coords, EltTy.bits .f32 = 32 ∨ (Rect.block (s := S1600000x50) S4000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1600000x1.size a
  hwx0_1 : ∀ i : grid0.Coords, EltTy.bits .f32 = 32 ∨ (Rect.block (s := S1600000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S1600000x128.size a
  hwx0_6 : ∀ i : grid0.Coords, EltTy.bits .f32 = 32 ∨ (Rect.block (s := S1600000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S4000x50_S50x128_S4000x128_1_0_0_1_n_n : DotDims S4000x50 S50x128 S4000x128 where
  lhsContracting := [1]
  rhsContracting := [0]
  lhsNonContracting := [0]
  rhsNonContracting := [1]
  lhsBatch := []
  rhsBatch := []
  wf := dot_S4000x50_S50x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg3) S4000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S50x128 : Shape := ⟨2, ![50, 128]⟩
abbrev S128 : Shape := ⟨1, ![128]⟩
abbrev S128x128 : Shape := ⟨2, ![128, 128]⟩
abbrev S1x1600000 : Shape := ⟨2, ![1, 1600000]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S1x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S1600000, .f32⟩
  | .hbm, ⟨28, _⟩ => ⟨S1600000, .f32⟩
  | .hbm, ⟨29, _⟩ => ⟨S1600000, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S_, .f32⟩
  | .hbm, ⟨34, _⟩ => ⟨S1600000, .f32⟩
  | .hbm, ⟨35, _⟩ => ⟨S1600000, .f32⟩
  | .hbm, ⟨36, _⟩ => ⟨S_, .f32⟩
  | .hbm, ⟨37, _⟩ => ⟨S1600000, .f32⟩
  | .hbm, ⟨38, _⟩ => ⟨S1600000, .i1⟩
  | .hbm, ⟨39, _⟩ => ⟨S_, .f32⟩
  | .hbm, ⟨40, _⟩ => ⟨S_, .f32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S1600000x128, .f32⟩
  | .hbm, ⟨45, _⟩ => ⟨S1600000x128, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S128x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  transposes_S128x128_S128x128_1_0 : S128x128.Transposes [1, 0] S128x128
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S1600000x50_S50x128_S1600000x128_1_0_0_1_n_n_wf : DotDims.WF S1600000x50 S50x128 S1600000x128 [1] [0] [0] [1] [] []
  dot_S1600000x128_S128x128_S1600000x128_1_0_0_1_n_n_wf : DotDims.WF S1600000x128 S128x128 S1600000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Stage.lean ====
/-
  The computation both programs perform, cut into stages that are whole-array functions of their operands
  (any float instance): the edge filter (a two-layer filter network on the radial features, times the cosine
  cutoff envelope of the edge length), the node-wise linear map, the message aggregation (gather the mapped
  source rows, multiply by the edge filter, add into the destination rows) and the node-wise two-layer map.
  Their composition `result` is the reference's result term, operation for operation.
-/
import proofs.«402260_j77232101916865_1_alg».proof.Proof.Gen.ReferenceIdeal

noncomputable section

namespace Cert.Stage

open Idealize.ShloMosaic Cert.ReferenceIdeal Cert.ReferenceIdeal.Gen

variable {F : FTy → Type} [FloatOps F]

/-- The cosine cutoff envelope of an edge of length `d`: `(cos (d · π/10) + 1) / 2` below the cutoff 10, zero from it on. -/
def envelope (d : FVec F S1600000 .f32) : FVec F S1600000 .f32 :=
  select (cmpf .olt d (broadcastInDim S1600000 ![] bcast_S_S1600000 (constant S_ .f32 0x41200000#32)))
    (mulf (broadcastInDim S1600000 ![] bcast_S_S1600000 (constant S_ .f32 0x3F000000#32))
      (addf (Host.cos (mulf d (broadcastInDim S1600000 ![] bcast_S_S1600000 (constant S_ .f32 0x3EA0D97C#32))))
        (broadcastInDim S1600000 ![] bcast_S_S1600000 (constant S_ .f32 0x3F800000#32))))
    (broadcastInDim S1600000 ![] bcast_S_S1600000 (id (constant S_ .f32 0x00000000#32)))

/-- The filter network on the radial features: `tanh (A · W₁ + b₁) · W₂ + b₂`, one row per edge. -/
def filterNet (A : FVec F S1600000x50 .f32) (W₁ : FVec F S50x128 .f32) (b₁ : FVec F S128 .f32)
    (W₂ : FVec F S128x128 .f32) (b₂ : FVec F S128 .f32) : FVec F S1600000x128 .f32 :=
  addf (Host.dotGeneral dot_S1600000x128_S128x128_S1600000x128_1_0_0_1_n_n none
      (Host.tanh (addf (Host.dotGeneral dot_S1600000x50_S50x128_S1600000x128_1_0_0_1_n_n none A W₁)
        (broadcastInDim S1600000x128 ![0, 1] bcast_S1x128_S1600000x128_0_1 (broadcastInDim S1x128 ![1] bcast_S128_S1x128_1 b₁)))) W₂)
    (broadcastInDim S1600000x128 ![0, 1] bcast_S1x128_S1600000x128_0_1 (broadcastInDim S1x128 ![1] bcast_S128_S1x128_1 b₂))

/-- The edge filter: the filter network's row scaled by the edge's cutoff envelope. -/
def edgeFilter (d : FVec F S1600000 .f32) (A : FVec F S1600000x50 .f32) (W₁ : FVec F S50x128 .f32) (b₁ : FVec F S128 .f32)
    (W₂ : FVec F S128x128 .f32) (b₂ : FVec F S128 .f32) : FVec F S1600000x128 .f32 :=
  mulf (filterNet A W₁ b₁ W₂ b₂)
    (broadcastInDim S1600000x128 ![0, 1] bcast_S1600000x1_S1600000x128_0_1
      (broadcastInDim S1600000x1 ![0] bcast_S1600000_S1600000x1_0 (envelope d)))

/-- The node-wise linear map `X · Wᵀ`, with the weight already transposed. -/
def nodeLin (X : FVec F S100000x128 .f32) (Wt : FVec F S128x128 .f32) : FVec F S100000x128 .f32 :=
  Host.dotGeneral dot_S100000x128_S128x128_S100000x128_1_0_0_1_n_n none X Wt

/-- One row of the edge list. -/
def edgeRow0 (E : IVec S2x1600000 32) : IVec S1600000 32 :=
  shapeCast _ (extractStridedSlice S1x1600000 ![0, 0] E slices_S2x1600000_S1x1600000_0_0) shapeCasts_S1x1600000_S1600000
def edgeRow1 (E : IVec S2x1600000 32) : IVec S1600000 32 :=
  shapeCast _ (extractStridedSlice S1x1600000 ![1, 0] E slices_S2x1600000_S1x1600000_1_0) shapeCasts_S1x1600000_S1600000

/-- The source node of each edge as a column of gather start indices, a negative index counted from the end. -/
def srcCol (E : IVec S2x1600000 32) : IVec S1600000x1 32 :=
  broadcastInDim S1600000x1 ![0] bcast_S1600000_S1600000x1_0
    (select (cmpi .slt (edgeRow0 E) (broadcastInDim S1600000 ![] bcast_S_S1600000 (constantI S_ 32 0#32)))
      (addi (edgeRow0 E) (broadcastInDim S1600000 ![] bcast_S_S1600000 (constantI S_ 32 100000#32)))
      (edgeRow0 E))

/-- The destination node of each edge as a column of scatter indices. -/
def dstCol (E : IVec S2x1600000 32) : IVec S1600000x1 32 :=
  broadcastInDim S1600000x1 ![0] bcast_S1600000_S1600000x1_0 (edgeRow1 E)

/-- Message aggregation: row `src e` of `T` times row `e` of the edge filter, added into row `dst e`. -/
def aggregate (T : FVec F S100000x128 .f32) (Wf : FVec F S1600000x128 .f32) (E : IVec S2x1600000 32) : FVec F S100000x128 .f32 :=
  Host.scatterAdd scatter_S100000x128_S1600000x1_S1600000x128_1_0_0_1
    (broadcastInDim S100000x128 ![] bcast_S_S100000x128 (constant S_ .f32 0x00000000#32))
    (dstCol E)
    (mulf (Host.gather gather_S100000x128_S1600000x1_S1600000x128_1_0_n_n_0_1_1128 T (srcCol E)) Wf)

/-- The node-wise two-layer map `tanh (G · U + p) · V + q`, with the weights already transposed. -/
def nodeMlp (G : FVec F S100000x128 .f32) (U : FVec F S128x128 .f32) (p : FVec F S128 .f32)
    (V : FVec F S128x128 .f32) (q : FVec F S128 .f32) : FVec F S100000x128 .f32 :=
  addf (Host.dotGeneral dot_S100000x128_S128x128_S100000x128_1_0_0_1_n_n none
      (Host.tanh (addf (Host.dotGeneral dot_S100000x128_S128x128_S100000x128_1_0_0_1_n_n none G U)
        (broadcastInDim S100000x128 ![0, 1] bcast_S1x128_S100000x128_0_1 (broadcastInDim S1x128 ![1] bcast_S128_S1x128_1 p)))) V)
    (broadcastInDim S100000x128 ![0, 1] bcast_S1x128_S100000x128_0_1 (broadcastInDim S1x128 ![1] bcast_S128_S1x128_1 q))

/-- A weight matrix transposed. -/
def tr (W : FVec F S128x128 .f32) : FVec F S128x128 .f32 := transpose S128x128 [1, 0] W transposes_S128x128_S128x128_1_0

/-- The whole computation, from the thirteen arguments. -/
def result (a0 : FVec F S100000x128 .f32) (a1 : IVec S2x1600000 32) (a2 : FVec F S1600000 .f32) (a3 : FVec F S1600000x50 .f32)
    (a4 : FVec F S50x128 .f32) (a5 : FVec F S128 .f32) (a6 : FVec F S128x128 .f32) (a7 : FVec F S128 .f32)
    (a8 a9 : FVec F S128x128 .f32) (a10 : FVec F S128 .f32) (a11 : FVec F S128x128 .f32) (a12 : FVec F S128 .f32) :
    FVec F S100000x128 .f32 :=
  nodeMlp (aggregate (nodeLin a0 (tr a8)) (edgeFilter a2 a3 a4 a5 a6 a7) a1) (tr a9) a10 (tr a11) a12

end Cert.Stage

end
-- ==== Proof.RefStaged.lean ====
/-
  The reference's run, with its result named by the stages: every weakly fair execution ends with the result array at
  `Stage.result` of the thirteen argument arrays, the arguments unchanged. The generated run states the same composed
  term operation by operation; the stages are that term's sub-terms, so the two posts are one by unfolding.
-/
import proofs.«402260_j77232101916865_1_alg».proof.Proof.Stage
import proofs.«402260_j77232101916865_1_alg».proof.Proof.Gen.ReferenceIdeal.Run

noncomputable section

open Idealize.ShloMosaic Idealize.ShloMosaic.TcCoe Idealize.SL.Sem

namespace Cert.ReferenceIdeal.Staged

open Cert.ReferenceIdeal Cert.ReferenceIdeal.Gen

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Cert.Stage.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Cert.ReferenceIdeal.Value.run (F := F) m ρ

end Cert.ReferenceIdeal.Staged

end
-- ==== Proof.TakeInRange.lean ====
import proofs.«402260_j77232101916865_1_alg».proof.Defs
import proofs.«402260_j77232101916865_1_alg».proof.Proof.Gen.KernelIdeal
import proofs.«402260_j77232101916865_1_alg».proof.Proof.Gen.Pre_finite_inputs
import Idealize.ShloMosaic.Lib.ValueIdx
import Idealize.ShloMosaic.Lib.ReduceAll
import Idealize.ShloMosaic.Lib.StableHlo.Predicate

noncomputable section

open Idealize.ShloMosaic Idealize.ShloMosaic.TcCoe Idealize.SL.Sem

namespace Cert.KernelIdeal.TakeInRange

open Cert.KernelIdeal Cert.KernelIdeal.Gen

/-- The source node of each edge: row 0 of the edge list as a vector. -/
def srcRow (E : IVec S2x1600000 32) : IVec S1600000 32 :=
  shapeCast _ (extractStridedSlice S1x1600000 ![0, 0] E slices_S2x1600000_S1x1600000_0_0) shapeCasts_S1x1600000_S1600000

/-- The column of gather start indices the take builds from it: a negative index counted from the end. -/
def srcCol (E : IVec S2x1600000 32) : IVec S1600000x1 32 :=
  broadcastInDim S1600000x1 ![0] bcast_S1600000_S1600000x1_0
    (select (cmpi .slt (srcRow E) (broadcastInDim S1600000 ![] bcast_S_S1600000 (constantI S_ 32 0#32)))
      (addi (srcRow E) (broadcastInDim S1600000 ![] bcast_S_S1600000 (constantI S_ 32 100000#32)))
      (srcRow E))

/-- The take's in-range test of a column of start indices: per edge, `0 ≤ index ≤ 99999`. -/
def inRange (col : IVec S1600000x1 32) : IVec S1600000 1 :=
  (fun x v => Host.reduce IntOp.andi x v reducesTo_S1600000x1_S1600000_d1 h_S_)
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1)

/-! ## Words: an index in `[0, 100000)` is not wrapped and passes the range test -/

theorem toInt_zero32 : (0#32 : BitVec 32).toInt = 0 := by decide
theorem toInt_hi32 : (99999#32 : BitVec 32).toInt = 99999 := by decide
theorem toInt_n32 : (100000#32 : BitVec 32).toInt = 100000 := by decide

/-- A word that reads, signed, as a number in `[0, 100000)` is kept by the wrap-around of negative indices, and the kept
    word is at least 0 and at most 99999. -/
theorem word_inRange (w : BitVec 32) (h0 : 0 ≤ w.toInt) (h1 : w.toInt < 100000) :
    IntOp.andi
        (IntOp.cmpi .sge (Scalar.select (IntOp.cmpi .slt w 0#32) (IntOp.addi w 100000#32) w) 0#32)
        (IntOp.cmpi .sle (Scalar.select (IntOp.cmpi .slt w 0#32) (IntOp.addi w 100000#32) w) 99999#32) = 1#1 := by
  have hs : IntOp.cmpi .slt w 0#32 = 0#1 :=
    ValueIdx.eq_zero_of_ne_one (fun h => by rw [IntOp.cmpi_slt, toInt_zero32] at h; omega)
  rw [hs, ValueIdx.select_zero, IntOp.andi_eq_one]
  exact ⟨IntOp.cmpi_sge.2 (by rw [toInt_zero32]; exact h0), IntOp.cmpi_sle.2 (by rw [toInt_hi32]; omega)⟩

/-! ## The reduce by `and`, the other way: all ones in, one out -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all f hf l

/-- A reduce by `and` from the constant 1 of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all x hx _

/-! ## The precondition's last conjunct, decoded -/

/-- The precondition says of every edge that its source index reads, signed, as a number in `[0, 100000)`. -/
theorem pre_src (m : (ℓ : Loc nD τ sig) → Buf (Elt Ideal) ℓ) [hP : Cert.Pre_finite_inputs.Facts] (hpre : Cert.Pre_KernelIdeal m) (c : Dev nD)
    (i : S1600000.Idx) :
    0 ≤ (srcRow (m ((c.tc : Thread nD τ).loc main_arg1)) i).toInt ∧ (srcRow (m ((c.tc : Thread nD τ).loc main_arg1)) i).toInt < 100000 := by
  have h0 := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  have h1 := (IntOp.andi_eq_one.1 h0).2
  -- the result of the reduce over every axis has one index
  haveI : Subsingleton Cert.Pre_finite_inputs.S_.Idx := ⟨fun a b => funext fun d => d.elim0⟩
  have h2 := Host.reduce_andi_all _ _ _ _ _ h1 i
  dsimp only [andi, cmpi, broadcastInDim, constantI] at h2
  obtain ⟨ha, hb⟩ := IntOp.andi_eq_one.1 h2
  rw [IntOp.cmpi_sge, toInt_zero32] at ha
  rw [IntOp.cmpi_slt, toInt_n32] at hb
  exact ⟨ha, hb⟩

/-- With every source index in `[0, 100000)` the take's in-range test is 1 on every edge. -/
theorem inRange_srcCol (E : IVec S2x1600000 32)
    (hE : ∀ i : S1600000.Idx, 0 ≤ (srcRow E i).toInt ∧ (srcRow E i).toInt < 100000) :
    inRange (srcCol E) = fun _ => 1#1 := by
  funext j
  unfold inRange
  refine reduce_andi_of_all _ _ _ _ (fun k => ?_) (fun _ => rfl) j
  -- the column at `k` is the wrapped source index of some edge
  obtain ⟨k', hk'⟩ : ∃ k' : S1600000.Idx, srcCol E k
      = Scalar.select (IntOp.cmpi .slt (srcRow E k') 0#32) (IntOp.addi (srcRow E k') 100000#32) (srcRow E k') := ⟨_, rfl⟩
  show IntOp.andi (IntOp.cmpi .sge (srcCol E k) 0#32) (IntOp.cmpi .sle (srcCol E k) 99999#32) = 1#1
  rw [hk']
  exact word_inRange _ (hE k').1 (hE k').2

/-- Under the precondition every source index lies in `[0, 100000)`, so the take's in-range test passes on every edge
    and its select keeps the gathered rows `G`, never the fill. -/
theorem take_eq (m : (ℓ : Loc nD τ sig) → Buf (Elt Ideal) ℓ) [hP : Cert.Pre_finite_inputs.Facts] (hpre : Cert.Pre_KernelIdeal m) (c : Dev nD)
    (G : FVec Ideal S1600000x128 .f32) :
    select (broadcastInDim S1600000x128 ![0] bcast_S1600000_S1600000x128_0 (inRange (srcCol (m ((c.tc : Thread nD τ).loc main_arg1)))))
      G (broadcastInDim S1600000x128 ![] bcast_S_S1600000x128 (constant S_ .f32 0x7FC00000#32)) = G := by
  rw [inRange_srcCol _ (pre_src m hpre c)]
  funext j
  show Scalar.select 1#1 (G j) _ = G j
  exact ValueIdx.select_one _ _

end Cert.KernelIdeal.TakeInRange

end
-- ==== Proof.Fold.lean ====
/-
  The host operations between the kernel regions, read back. At each region's entry the buffers' contents are a fold
  through @main from the launch memory; here each buffer a region reads is walked back through that fold: an argument
  no operation writes is as launched; the edge lengths enter the filter region as a reshaped column, the weights enter
  the node-wise regions transposed; and the last region's first operand is the scatter-add, into the destination rows,
  of the take (of the linear region's output at the source nodes) times the filter region's output.
-/
import proofs.«402260_j77232101916865_1_alg».proof.Proof.Gen.KernelIdeal.Frame
import proofs.«402260_j77232101916865_1_alg».proof.Proof.Stage
import proofs.«402260_j77232101916865_1_alg».proof.Proof.TakeInRange
import Idealize.ShloMosaic.Lib.StableHlo.Run

set_option maxRecDepth 16384

noncomputable section

open Idealize.ShloMosaic Idealize.ShloMosaic.TcCoe Idealize.SL.Sem

namespace Cert.KernelIdeal.Fold

open Cert.KernelIdeal Cert.KernelIdeal.Gen Idealize.ShloMosaic.StableHlo

variable {F : FTy → Type} [FloatOps F]
variable (m : (ℓ : Loc nD τ sig) → Buf (Elt F) ℓ) (ρ : Dev nD → PrngReg)

/-- A buffer no operation of a host stretch writes holds after the stretch what it held before. -/
local macro "unwritten" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Region 0's entry: the filter's operands as launched, the edge lengths as a column -/

theorem V1_arg3 (c : Dev nD) : V1 m ρ c main_arg3 = m ((c : Thread nD τ).loc main_arg3) :=
  calc W1 m ρ c (Proc.devRef .tc main_arg3)
    _ = W0 m ρ c (Proc.devRef .tc main_arg3) := by unwritten hostOps0
    _ = m ((c : Thread nD τ).loc main_arg3) := rfl
theorem V1_arg4 (c : Dev nD) : V1 m ρ c main_arg4 = m ((c : Thread nD τ).loc main_arg4) :=
  calc W1 m ρ c (Proc.devRef .tc main_arg4)
    _ = W0 m ρ c (Proc.devRef .tc main_arg4) := by unwritten hostOps0
    _ = m ((c : Thread nD τ).loc main_arg4) := rfl
theorem V1_arg5 (c : Dev nD) : V1 m ρ c main_arg5 = m ((c : Thread nD τ).loc main_arg5) :=
  calc W1 m ρ c (Proc.devRef .tc main_arg5)
    _ = W0 m ρ c (Proc.devRef .tc main_arg5) := by unwritten hostOps0
    _ = m ((c : Thread nD τ).loc main_arg5) := rfl
theorem V1_arg6 (c : Dev nD) : V1 m ρ c main_arg6 = m ((c : Thread nD τ).loc main_arg6) :=
  calc W1 m ρ c (Proc.devRef .tc main_arg6)
    _ = W0 m ρ c (Proc.devRef .tc main_arg6) := by unwritten hostOps0
    _ = m ((c : Thread nD τ).loc main_arg6) := rfl
theorem V1_arg7 (c : Dev nD) : V1 m ρ c main_arg7 = m ((c : Thread nD τ).loc main_arg7) :=
  calc W1 m ρ c (Proc.devRef .tc main_arg7)
    _ = W0 m ρ c (Proc.devRef .tc main_arg7) := by unwritten hostOps0
    _ = m ((c : Thread nD τ).loc main_arg7) := rfl

theorem V1_v0 (c : Dev nD) : V1 m ρ c main_v0 = shapeCast S1600000x1 (m ((c : Thread nD τ).loc main_arg2)) shapeCasts_S1600000_S1600000x1 := by
  show StableHlo.after hostOps0 (W0 m ρ c) (Proc.devRef .tc main_v0) = _
  after_results <;> rfl

/-! ## Region 1's entry: the node features as launched, the first weight transposed -/

/-- A buffer that is no window of region 0 and that no host operation before region 1 writes is, at region 1's entry, as launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by unwritten hostOps0
    _ = m ((c : Thread nD τ).loc main_arg0) := rfl
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by unwritten hostOps0
    _ = m ((c : Thread nD τ).loc main_arg8) := rfl

theorem V3_arg0 (c : Dev nD) : V3 m ρ c main_arg0 = m ((c : Thread nD τ).loc main_arg0) :=
  calc W3 m ρ c (Proc.devRef .tc main_arg0)
    _ = W2 m ρ c (Proc.devRef .tc main_arg0) := by unwritten hostOps1
    _ = m ((c : Thread nD τ).loc main_arg0) := W2_arg0 m ρ c

theorem V3_v2 (c : Dev nD) : V3 m ρ c main_v2 = transpose S128x128 [1, 0] (m ((c : Thread nD τ).loc main_arg8)) transposes_S128x128_S128x128_1_0 := by
  show StableHlo.after hostOps1 (W2 m ρ c) (Proc.devRef .tc main_v2) = _
  rw [← W2_arg8 m ρ c]
  generalize W2 m ρ c = W
  after_results <;> rfl

/-! ## Between region 1 and region 2: the take, the messages, the scatter-add -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by unwritten hostOps1
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = m ((c : Thread nD τ).loc main_arg9) := rfl
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = m ((c : Thread nD τ).loc main_arg10) := rfl
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = m ((c : Thread nD τ).loc main_arg11) := rfl
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by unwritten hostOps1
    _ = W1 m ρ c (Proc.devRef .tc main_arg12) := W2_of_ne m ρ c main_arg12 (by decide)
    _ = W0 m ρ c (Proc.devRef .tc main_arg12) := by unwritten hostOps0
    _ = m ((c : Thread nD τ).loc main_arg12) := rfl
theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := by unwritten hostOps2_1
    _ = W4 m ρ c (Proc.devRef .tc main_arg9) := by unwritten hostOps2
    _ = m ((c : Thread nD τ).loc main_arg9) := W4_arg9 m ρ c
theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := by unwritten hostOps2_1
    _ = W4 m ρ c (Proc.devRef .tc main_arg10) := by unwritten hostOps2
    _ = m ((c : Thread nD τ).loc main_arg10) := W4_arg10 m ρ c
theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := by unwritten hostOps2_1
    _ = W4 m ρ c (Proc.devRef .tc main_arg11) := by unwritten hostOps2
    _ = m ((c : Thread nD τ).loc main_arg11) := W4_arg11 m ρ c
theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := by unwritten hostOps2_1
    _ = W4 m ρ c (Proc.devRef .tc main_arg12) := by unwritten hostOps2
    _ = m ((c : Thread nD τ).loc main_arg12) := W4_arg12 m ρ c
theorem V7_arg10 (c : Dev nD) : V7 m ρ c main_arg10 = m ((c : Thread nD τ).loc main_arg10) :=
  calc W7 m ρ c (Proc.devRef .tc main_arg10)
    _ = W6 m ρ c (Proc.devRef .tc main_arg10) := by unwritten hostOps2_2
    _ = m ((c : Thread nD τ).loc main_arg10) := W6_arg10 m ρ c
theorem V7_arg12 (c : Dev nD) : V7 m ρ c main_arg12 = m ((c : Thread nD τ).loc main_arg12) :=
  calc W7 m ρ c (Proc.devRef .tc main_arg12)
    _ = W6 m ρ c (Proc.devRef .tc main_arg12) := by unwritten hostOps2_2
    _ = m ((c : Thread nD τ).loc main_arg12) := W6_arg12 m ρ c

/-- Region 1's output array reaches the take unchanged. -/
theorem W5_v3 (c : Dev nD) : W5 m ρ c (Proc.devRef .tc main_v3) = (dat1 (V3 m ρ) c).arrAt 2 cfg1.N :=
  calc W5 m ρ c (Proc.devRef .tc main_v3)
    _ = W4 m ρ c (Proc.devRef .tc main_v3) := by unwritten hostOps2
    _ = (dat1 (V3 m ρ) c).arrAt 2 cfg1.N := W4_arr m ρ c 2

/-- Region 0's output array reaches the message product unchanged. -/
theorem W6_v1 (c : Dev nD) : W6 m ρ c (Proc.devRef .tc main_v1) = (dat0 (V1 m ρ) c).arrAt 6 cfg0.N :=
  calc W6 m ρ c (Proc.devRef .tc main_v1)
    _ = W5 m ρ c (Proc.devRef .tc main_v1) := by unwritten hostOps2_1
    _ = W4 m ρ c (Proc.devRef .tc main_v1) := by unwritten hostOps2
    _ = W3 m ρ c (Proc.devRef .tc main_v1) := W4_of_ne m ρ c main_v1 (by decide)
    _ = W2 m ρ c (Proc.devRef .tc main_v1) := by unwritten hostOps1
    _ = (dat0 (V1 m ρ) c).arrAt 6 cfg0.N := W2_arr m ρ c 6

/-- The two rows of the edge list, as the first stretch after region 1 leaves them. -/
theorem after2_v5 (W : Valuation τ sig (Elt F)) :
    StableHlo.after hostOps2 W (Proc.devRef .tc main_v5) = Cert.KernelIdeal.TakeInRange.srcRow (W (Proc.devRef .tc main_arg1)) := by
  after_results <;> rfl
theorem after2_v7 (W : Valuation τ sig (Elt F)) :
    StableHlo.after hostOps2 W (Proc.devRef .tc main_v7)
      = shapeCast S1600000 (extractStridedSlice S1x1600000 ![1, 0] (W (Proc.devRef .tc main_arg1)) slices_S2x1600000_S1x1600000_1_0) shapeCasts_S1x1600000_S1600000 := by
  after_results <;> rfl

/-- The column of start indices built from a vector of source nodes. -/
def colOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The take at a column of start indices: the gathered rows where the in-range test passes, the fill elsewhere. -/
def takeAt (T : FVec F S100000x128 .f32) (col : IVec S1600000x1 32) : FVec F S1600000x128 .f32 :=
  select (broadcastInDim S1600000x128 ![0] bcast_S1600000_S1600000x128_0 (Cert.KernelIdeal.TakeInRange.inRange col))
    (Host.gather gather_S100000x128_S1600000x1_S1600000x128_1_0_n_n_0_1_1128 T col)
    (broadcastInDim S1600000x128 ![] bcast_S_S1600000x128 (constant S_ .f32 0x7FC00000#32))

/-- The take of rows `T` at a vector of source nodes. -/
def takeOf (T : FVec F S100000x128 .f32) (s : IVec S1600000 32) : FVec F S1600000x128 .f32 := takeAt T (colOf s)

/-- A run of host operations is the run of its tail after the run of its head. -/
theorem after_append : ∀ (A B : List (HloOp τ sig (Elt F))) (V : Valuation τ sig (Elt F)),
    StableHlo.after (A ++ B) V = StableHlo.after B (StableHlo.after A V)
  | [], _, _ => rfl
  | a :: A, B, V => by
    show StableHlo.after (A ++ B) (a.result V) = StableHlo.after B (StableHlo.after A (a.result V))
    exact after_append A B _

theorem after_split (n : Nat) (ops : List (HloOp τ sig (Elt F))) (W : Valuation τ sig (Elt F)) :
    StableHlo.after ops W = StableHlo.after (ops.drop n) (StableHlo.after (ops.take n) W) := by
  conv_lhs => rw [← List.take_append_drop n ops]
  exact after_append _ _ _

/-- The take's first eight operations: the wrap of negative indices and the column of start indices. -/
abbrev headOps : List (HloOp τ sig (Elt F)) := (hostOps2_1 (F := F)).take 8
/-- Its operations 9 to 18: the in-range test of the column. -/
abbrev midOps : List (HloOp τ sig (Elt F)) := ((hostOps2_1 (F := F)).drop 8).take 10
/-- Its last five operations: the gather, the test spread over the lanes, the fill, the select. -/
abbrev lastOps : List (HloOp τ sig (Elt F)) := ((hostOps2_1 (F := F)).drop 8).drop 10

/-- A buffer no operation of a part of the take writes holds after the part what it held before. -/
local macro "unwritten_part" : tactic => `(tactic| (
  refine StableHlo.after_of_forall_not_mem _ _ (List.forall_iff_forall_mem.mp ?_)
  simp only [headOps, midOps, lastOps, hostOps2_1, List.drop_succ_cons, List.drop_zero, List.take_succ_cons, List.take_zero,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 1000000 in
theorem head_col (W : Valuation τ sig (Elt F)) :
    StableHlo.after (headOps (F := F)) W (Proc.devRef .tc main_call0_v5) = colOf (W (Proc.devRef .tc main_v5)) := by
  unfold colOf
  simp only [headOps, hostOps2_1, List.take_succ_cons, List.take_zero]
  after_results_simp <;> rfl

/-- A reduce by `and` written into the test's buffer, with equal operands. -/
theorem reduce_congr (a a' : IVec S1600000x1 1) (b b' : IVec S_ 1) (ha : a = a') (hb : b = b') :
    (StableHlo.TRef.of main_call0_v12 : StableHlo.TRef sig ⟨S1600000, .i1⟩).toBuf (Val := Elt F)
        (Host.reduce IntOp.andi a b reducesTo_S1600000x1_S1600000_d1 h_S_)
      = Host.reduce IntOp.andi a' b' reducesTo_S1600000x1_S1600000_d1 h_S_ := by
  subst ha hb
  generalize Host.reduce IntOp.andi a b reducesTo_S1600000x1_S1600000_d1 h_S_ = X
  rfl

set_option maxHeartbeats 1000000 in
theorem mid_mask (W : Valuation τ sig (Elt F)) :
    StableHlo.after (midOps (F := F)) W (Proc.devRef .tc main_call0_v12) = Cert.KernelIdeal.TakeInRange.inRange (W (Proc.devRef .tc main_call0_v5)) := by
  unfold Cert.KernelIdeal.TakeInRange.inRange
  simp only [midOps, hostOps2_1, List.drop_succ_cons, List.drop_zero, List.take_succ_cons, List.take_zero]
  after_results_simp
  exact reduce_congr _ _ _ _ rfl rfl

set_option maxHeartbeats 1000000 in
theorem last_take (W : Valuation τ sig (Elt F)) :
    StableHlo.after (lastOps (F := F)) W (Proc.devRef .tc main_v8)
      = select (broadcastInDim S1600000x128 ![0] bcast_S1600000_S1600000x128_0 (W (Proc.devRef .tc main_call0_v12)))
          (Host.gather gather_S100000x128_S1600000x1_S1600000x128_1_0_n_n_0_1_1128 (W (Proc.devRef .tc main_v3)) (W (Proc.devRef .tc main_call0_v5)))
          (broadcastInDim S1600000x128 ![] bcast_S_S1600000x128 (constant S_ .f32 0x7FC00000#32)) := by
  simp only [lastOps, hostOps2_1, List.drop_succ_cons, List.drop_zero]
  after_results_simp <;> rfl

/-- The take's 23 operations leave, in its result buffer, the take of the rows in `main_v3` at the source nodes in `main_v5`. -/
theorem after2_1_v8 (W : Valuation τ sig (Elt F)) :
    StableHlo.after hostOps2_1 W (Proc.devRef .tc main_v8)
      = takeOf (F := F) (W (Proc.devRef .tc main_v3)) (W (Proc.devRef .tc main_v5)) := by
  have k1 : ∀ W' : Valuation τ sig (Elt F), StableHlo.after (midOps (F := F)) W' (Proc.devRef .tc main_v3) = W' (Proc.devRef .tc main_v3) :=
    fun W' => by unwritten_part
  have k2 : ∀ W' : Valuation τ sig (Elt F), StableHlo.after (midOps (F := F)) W' (Proc.devRef .tc main_call0_v5) = W' (Proc.devRef .tc main_call0_v5) :=
    fun W' => by unwritten_part
  have k3 : StableHlo.after (headOps (F := F)) W (Proc.devRef .tc main_v3) = W (Proc.devRef .tc main_v3) := by unwritten_part
  rw [after_split 8 hostOps2_1 W, after_split 10 ((hostOps2_1 (F := F)).drop 8)]
  show StableHlo.after (lastOps (F := F)) (StableHlo.after (midOps (F := F)) (StableHlo.after (headOps (F := F)) W)) (Proc.devRef .tc main_v8) = _
  rw [last_take, mid_mask, k1, k2, k3, head_col]
  rfl

theorem after2_2_v12 (W : Valuation τ sig (Elt F)) :
    StableHlo.after hostOps2_2 W (Proc.devRef .tc main_v12)
      = Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (W (Proc.devRef .tc main_v7)))
          (mulf (W (Proc.devRef .tc main_v8)) (W (Proc.devRef .tc main_v1))) := by
  after_results <;> rfl
theorem after2_2_v13 (W : Valuation τ sig (Elt F)) :
    StableHlo.after hostOps2_2 W (Proc.devRef .tc main_v13)
      = transpose S128x128 [1, 0] (W (Proc.devRef .tc main_arg9)) transposes_S128x128_S128x128_1_0 := by
  after_results <;> rfl
theorem after2_2_v14 (W : Valuation τ sig (Elt F)) :
    StableHlo.after hostOps2_2 W (Proc.devRef .tc main_v14)
      = transpose S128x128 [1, 0] (W (Proc.devRef .tc main_arg11)) transposes_S128x128_S128x128_1_0 := by
  after_results <;> rfl

theorem V7_v13 (c : Dev nD) : V7 m ρ c main_v13 = transpose S128x128 [1, 0] (m ((c : Thread nD τ).loc main_arg9)) transposes_S128x128_S128x128_1_0 := by
  show StableHlo.after hostOps2_2 (W6 m ρ c) (Proc.devRef .tc main_v13) = _
  rw [after2_2_v13, W6_arg9]
theorem V7_v14 (c : Dev nD) : V7 m ρ c main_v14 = transpose S128x128 [1, 0] (m ((c : Thread nD τ).loc main_arg11)) transposes_S128x128_S128x128_1_0 := by
  show StableHlo.after hostOps2_2 (W6 m ρ c) (Proc.devRef .tc main_v14) = _
  rw [after2_2_v14, W6_arg11]

/-- Region 2's first operand: the messages (the take of region 1's output at the source nodes, times region 0's
    output) added into the destination rows. -/
theorem V7_v12 (c : Dev nD) :
    V7 m ρ c main_v12
      = Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0
            (shapeCast S1600000 (extractStridedSlice S1x1600000 ![1, 0] (m ((c : Thread nD τ).loc main_arg1)) slices_S2x1600000_S1x1600000_1_0) shapeCasts_S1x1600000_S1600000))
          (mulf (takeOf (F := F) ((dat1 (V3 m ρ) c).arrAt 2 cfg1.N) (Cert.KernelIdeal.TakeInRange.srcRow (m ((c : Thread nD τ).loc main_arg1))))
            ((dat0 (V1 m ρ) c).arrAt 6 cfg0.N)) := by
  show StableHlo.after hostOps2_2 (W6 m ρ c) (Proc.devRef .tc main_v12) = _
  rw [after2_2_v12, W6_v1]
  have e7 : W6 m ρ c (Proc.devRef .tc main_v7)
      = shapeCast S1600000 (extractStridedSlice S1x1600000 ![1, 0] (m ((c : Thread nD τ).loc main_arg1)) slices_S2x1600000_S1x1600000_1_0) shapeCasts_S1x1600000_S1600000 :=
    calc W6 m ρ c (Proc.devRef .tc main_v7)
      _ = W5 m ρ c (Proc.devRef .tc main_v7) := by unwritten hostOps2_1
      _ = _ := by
        show StableHlo.after hostOps2 (W4 m ρ c) (Proc.devRef .tc main_v7) = _
        rw [after2_v7, W4_arg1]
  have e8 : W6 m ρ c (Proc.devRef .tc main_v8)
      = takeOf (F := F) ((dat1 (V3 m ρ) c).arrAt 2 cfg1.N) (Cert.KernelIdeal.TakeInRange.srcRow (m ((c : Thread nD τ).loc main_arg1))) := by
    have e5 : W5 m ρ c (Proc.devRef .tc main_v5) = Cert.KernelIdeal.TakeInRange.srcRow (m ((c : Thread nD τ).loc main_arg1)) := by
      show StableHlo.after hostOps2 (W4 m ρ c) (Proc.devRef .tc main_v5) = _
      rw [after2_v5, W4_arg1]
    show StableHlo.after hostOps2_1 (W5 m ρ c) (Proc.devRef .tc main_v8) = _
    rw [after2_1_v8, W5_v3, e5]
  rw [e7, e8]

end Cert.KernelIdeal.Fold

end
-- ==== Proof.Lin1Value.lean ====
import proofs.«402260_j77232101916865_1_alg».proof.Proof.Gen.KernelIdeal.Frame
import proofs.«402260_j77232101916865_1_alg».proof.Proof.Stage
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Lin1Value

open Cert.KernelIdeal Cert.KernelIdeal.Gen

/-! ## The block product's operand indices, axis by axis -/

theorem blockDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blockDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blockDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of a block, column `k`. -/
abbrev blockRow (i : S5000x128.Idx) (k : Fin 128) : S5000x128.Idx := fun a => match a with
  | ⟨0, _⟩ => ⟨(i 0).val, (i 0).isLt⟩
  | ⟨1, _⟩ => ⟨k.val, k.isLt⟩
/-- Row `k` of the weight, column `i 1` of a block index. -/
abbrev blockCol (i : S5000x128.Idx) (k : Fin 128) : S128x128.Idx := fun a => match a with
  | ⟨0, _⟩ => ⟨k.val, k.isLt⟩
  | ⟨1, _⟩ => ⟨(i 1).val, (i 1).isLt⟩

/-- The body's product of a rows block with the weight, at an index of the block: the sum over the 128 columns. -/
theorem pay_apply (x0 : Vec Ideal S5000x128 .f32) (x1 : Vec Ideal S128x128 .f32) (i : S5000x128.Idx) :
    k1_pay1 (F := Ideal) x0 x1 i = ∑ k : Fin 128, x0 (blockRow i k) * x1 (blockCol i k) := by
  unfold k1_pay1
  refine (Ideal.matmul_constant_zero_apply dot_S5000x128_S128x128_S5000x128_1_0_0_1_n_n none _ _ i).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = blockRow i k := funext fun a => Fin.ext (by
    match a with
    | ⟨0, _⟩ => exact blockDot_lhs_0 _ _
    | ⟨1, _⟩ => exact (blockDot_lhs_1 _ _).trans hk)
  have er : dot_S5000x128_S128x128_S5000x128_1_0_0_1_n_n.rhsIdx i ((ValueIdx.contrEquiv1 dot_S5000x128_S128x128_S5000x128_1_0_0_1_n_n 128 rfl rfl).symm k) = blockCol i k := funext fun a => Fin.ext (by
    match a with
    | ⟨0, _⟩ => exact (blockDot_rhs_0 _ _).trans hk
    | ⟨1, _⟩ => exact blockDot_rhs_1 _ _)
  rw [el, er, shapeCast_self]
  rfl

/-! ## The whole product's operand indices, axis by axis -/

theorem wholeDot_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem wholeDot_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem wholeDot_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem wholeDot_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Row `i 0` of the array, column `k`. -/
abbrev arrRow (i : S100000x128.Idx) (k : Fin 128) : S100000x128.Idx := fun a => match a with
  | ⟨0, _⟩ => ⟨(i 0).val, (i 0).isLt⟩
  | ⟨1, _⟩ => ⟨k.val, k.isLt⟩
/-- Row `k` of the weight, column `i 1` of an array index. -/
abbrev arrCol (i : S100000x128.Idx) (k : Fin 128) : S128x128.Idx := fun a => match a with
  | ⟨0, _⟩ => ⟨k.val, k.isLt⟩
  | ⟨1, _⟩ => ⟨(i 1).val, (i 1).isLt⟩

/-- The node-wise linear map at an index of the array: the sum over the 128 columns. -/
theorem nodeLin_apply (X : S100000x128.Idx → EReal) (Wt : S128x128.Idx → EReal) (i : S100000x128.Idx) :
    Cert.Stage.nodeLin (F := Ideal) X Wt i = ∑ k : Fin 128, X (arrRow i k) * Wt (arrCol i k) := by
  unfold Cert.Stage.nodeLin
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrRow i k := funext fun a => Fin.ext (by
    match a with
    | ⟨0, _⟩ => exact wholeDot_lhs_0 _ _
    | ⟨1, _⟩ => exact (wholeDot_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrCol i k := funext fun a => Fin.ext (by
    match a with
    | ⟨0, _⟩ => exact (wholeDot_rhs_0 _ _).trans hk
    | ⟨1, _⟩ => exact wholeDot_rhs_1 _ _)
  rw [el, er]

/-! ## From blocks to the array -/

theorem zeroOffsets : (![0, 0] : Fin 2 → Nat) = fun _ => 0 := funext fun a => by fin_cases a <;> rfl

/-- The printed index maps over the 20 points: the rows blocks of the input and of the output sit at block
    `(t, 0)`, the weight's one block at `(0, 0)`. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A product of two array entries moves along equal indices. -/
theorem mul_congr_idx (X : S100000x128.Idx → EReal) (W : S128x128.Idx → EReal) {a a' : S100000x128.Idx} {b b' : S128x128.Idx}
    (ha : a = a') (hb : b = b') : X a * W b = X a' * W b' := by rw [ha, hb]

/-- What point `t` writes back is block `t` of the whole product of the two arrays as the region finds them. -/
theorem flushed_eq (V : (c : Dev nD) → (b : Ref sig .tc) → Buf (Elt Ideal) ((c : Thread nD τ).loc b)) (c : Dev nD) (t : Fin cfg1.N) :
    (dat1 V c).flushed 2 t = ((cfg1.win 2).blk t).view.read (Elt Ideal) (Cert.Stage.nodeLin (F := Ideal) (V c main_arg0) (V c main_v2)) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S128x128) zeroOffsets]
  obtain ⟨e0, e1, e2, e3, e4, e5⟩ := blockIndices t
  funext j
  show k1_pay1 (F := Ideal) (iblk1 V c 0 t) (iblk1 V c 1 t) j = Cert.Stage.nodeLin (F := Ideal) (V c main_arg0) (V c main_v2) (((cfg1.win 2).blk t).view.emb j)
  refine (pay_apply (iblk1 V c 0 t) (iblk1 V c 1 t) j).trans ?_
  refine Eq.trans ?_ (nodeLin_apply (V c main_arg0) (V c main_v2) (((cfg1.win 2).blk t).view.emb j)).symm
  refine Finset.sum_congr rfl fun k _ => ?_
  have h0 : ((cfg1.win 0).blk t).view.emb (blockRow j k) = arrRow (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (blockCol j k) = arrCol (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  exact mul_congr_idx (V c main_arg0) (V c main_v2) h0 h1

/-- An index of the array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v3).slice (win1_2.rect t)).set ↔ _
  rw [View.set_slice_whole, Rect.mem_set_unit]
  exact Iff.rfl

/-- Every index of the array lies in the block of the point its row falls in: row `r` in block `r / 5000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < grid1.N := by rw [N_1]; omega
  refine ⟨⟨(i 0).val / 5000, ht⟩, flush1_2 _, ?_⟩
  rw [mem_block]
  obtain ⟨e0, e1, e2, e3, e4, e5⟩ := blockIndices ⟨(i 0).val / 5000, ht⟩
  have e4' : win1_2.index ⟨(i 0).val / 5000, ht⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; rw [e4']; omega
  | ⟨1, _⟩ => show win1_2.index _ (1 : Fin 2) * 128 ≤ (i 1).val ∧ (i 1).val < win1_2.index _ (1 : Fin 2) * 128 + 128; rw [e5]; omega

/-- The node-wise linear region: after its run the output array is the whole product of the region's two input arrays. -/
theorem arr (V : (c : Dev nD) → (b : Ref sig .tc) → Buf (Elt Ideal) ((c : Thread nD τ).loc b)) (c : Dev nD) :
    (dat1 V c).arrAt 2 cfg1.N = Cert.Stage.nodeLin (F := Ideal) (V c main_arg0) (V c main_v2) :=
  (dat1 V c).arrAt_eq_of_cover 2 (Cert.Stage.nodeLin (F := Ideal) (V c main_arg0) (V c main_v2)) (fun t _ => flushed_eq V c t) covered

end Cert.KernelIdeal.Lin1Value

end
-- ==== Proof.Envelope.lean ====
import proofs.«402260_j77232101916865_1_alg».proof.Proof.Gen.KernelIdeal.Frame
import proofs.«402260_j77232101916865_1_alg».proof.Proof.Stage
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Envelope

open Cert.KernelIdeal Cert.KernelIdeal.Gen

open ValueIdx

/-- The cutoff envelope of one edge length on the extended reals: `(cos (x · π/10) + 1) / 2` where `x < 10`, zero elsewhere
    (the constants are the programs' own words, never evaluated). -/
def envAt (x : Ideal .f32) : Ideal .f32 :=
  Scalar.select (FloatOps.cmpf .olt x (Scalar.ofBits .f32 0x41200000#32))
    (FloatOps.mulf (Scalar.ofBits .f32 0x3F000000#32)
      (FloatOps.addf (FloatOps.cos (FloatOps.mulf x (Scalar.ofBits .f32 0x3EA0D97C#32))) (Scalar.ofBits .f32 0x3F800000#32)))
    (Scalar.ofBits .f32 0x00000000#32)

/-- The kernel body's envelope of a block's column of edge lengths, spread over the 128 lanes (the body's own operations). -/
def kernelCol (x18 : Vec Ideal S4000x1 .f32) : FVec Ideal S4000x128 .f32 :=
  broadcastTo S4000x128
    (select (cmpf .olt (shapeCast S4000x1 x18 shapeCasts_S4000x1_S4000x1 : FVec Ideal S4000x1 .f32) (broadcast S4000x1 (Scalar.ofBits .f32 0x41200000#32)))
      (mulf (broadcast S4000x1 (Scalar.ofBits .f32 0x3F000000#32))
        (addf (cos (mulf (shapeCast S4000x1 x18 shapeCasts_S4000x1_S4000x1 : FVec Ideal S4000x1 .f32) (broadcast S4000x1 (Scalar.ofBits .f32 0x3EA0D97C#32))))
          (broadcast S4000x1 (Scalar.ofBits .f32 0x3F800000#32))))
      (broadcast S4000x1 (Scalar.ofBits .f32 0x00000000#32)))
    broadcasts_S4000x1_S4000x128

/-- Lane `q` of row `p` of the kernel's envelope block is the envelope of the row's edge length. -/
theorem kernelCol_apply (x18 : Vec Ideal S4000x1 .f32) (p : Fin 4000) (q : Fin 128) :
    kernelCol x18 (ix2 p q) = envAt (x18 (ix2 p 0)) := by
  unfold kernelCol
  -- the spread over the lanes reads the column at the same row, at its one lane
  refine (broadcastTo_apply _ broadcasts_S4000x1_S4000x128 (ix2 p q) (ix2 p (0 : Fin 1)) (fun a => ?_)).trans ?_
  · match a with
    | ⟨0, _⟩ => rfl
    | ⟨1, _⟩ => rfl
  -- a cast of a shape to itself is the identity; the rest is pointwise
  rw [shapeCast_self]
  rfl

/-- The reference's envelope, computed on the length vector and spread to a column and then over the 128 lanes, read at
    row `e`, lane `q`: the envelope of edge `e`'s length. -/
theorem stageCol_apply (d : FVec Ideal Cert.ReferenceIdeal.S1600000 .f32) (e : Fin 1600000) (q : Fin 128) :
    (broadcastInDim Cert.ReferenceIdeal.S1600000x128 ![0, 1] Cert.ReferenceIdeal.Gen.bcast_S1600000x1_S1600000x128_0_1
      (broadcastInDim Cert.ReferenceIdeal.S1600000x1 ![0] Cert.ReferenceIdeal.Gen.bcast_S1600000_S1600000x1_0 (Cert.Stage.envelope (F := Ideal) d))) (ix2 e q)
      = envAt (d (ix1 e)) := by
  -- the spread over the lanes reads the column at row `e`, at its one lane
  refine (broadcastInDim_apply ![0, 1] Cert.ReferenceIdeal.Gen.bcast_S1600000x1_S1600000x128_0_1 _ (ix2 e q) (ix2 e (0 : Fin 1)) (fun a => ?_)).trans ?_
  · match a with
    | ⟨0, _⟩ => rfl
    | ⟨1, _⟩ => rfl
  -- the column reads the vector at `e`
  refine (broadcastInDim_apply ![0] Cert.ReferenceIdeal.Gen.bcast_S1600000_S1600000x1_0 _ (ix2 e (0 : Fin 1)) (ix1 e) (fun a => ?_)).trans ?_
  · match a with
    | ⟨0, _⟩ => rfl
  -- the host's operations are pointwise, and at the extended reals the host's cosine is the kernel's
  rfl

end Cert.KernelIdeal.Envelope

end
-- ==== Proof.FilterValue.lean ====
import proofs.«402260_j77232101916865_1_alg».proof.Proof.Gen.KernelIdeal.Frame
import proofs.«402260_j77232101916865_1_alg».proof.Proof.Gen.ReferenceIdeal.Read
import proofs.«402260_j77232101916865_1_alg».proof.Proof.Stage
import proofs.«402260_j77232101916865_1_alg».proof.Proof.Envelope
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.FilterValue

open Cert.KernelIdeal Cert.KernelIdeal.Gen
open ValueIdx

/-! ## The block matmuls' index maps, axis by axis -/

theorem lhs_blk50_0 (i : S4000x128.Idx) (q : dot_S4000x50_S50x128_S4000x128_1_0_0_1_n_n.contr.Idx) :
    (dot_S4000x50_S50x128_S4000x128_1_0_0_1_n_n.lhsIdx i q 0).val = (i 0).val := by
  unfold DotDims.lhsIdx
  rw [dif_neg (show ¬(0 : Fin S4000x50.rank) ∈ dot_S4000x50_S50x128_S4000x128_1_0_0_1_n_n.lhsBatch by decide), dif_pos (show (0 : Fin S4000x50.rank) ∈ dot_S4000x50_S50x128_S4000x128_1_0_0_1_n_n.lhsNonContracting by decide)]
  rfl
theorem lhs_blk50_1 (i : S4000x128.Idx) (q : dot_S4000x50_S50x128_S4000x128_1_0_0_1_n_n.contr.Idx) :
    (dot_S4000x50_S50x128_S4000x128_1_0_0_1_n_n.lhsIdx i q 1).val = (q ⟨0, by decide⟩).val :=
  dot_S4000x50_S50x128_S4000x128_1_0_0_1_n_n.lhsIdx_val_of_single rfl i q
theorem rhs_blk50_0 (i : S4000x128.Idx) (q : dot_S4000x50_S50x128_S4000x128_1_0_0_1_n_n.contr.Idx) :
    (dot_S4000x50_S50x128_S4000x128_1_0_0_1_n_n.rhsIdx i q 0).val = (q ⟨0, by decide⟩).val :=
  dot_S4000x50_S50x128_S4000x128_1_0_0_1_n_n.rhsIdx_val_of_single rfl i q
theorem rhs_blk50_1 (i : S4000x128.Idx) (q : dot_S4000x50_S50x128_S4000x128_1_0_0_1_n_n.contr.Idx) :
    (dot_S4000x50_S50x128_S4000x128_1_0_0_1_n_n.rhsIdx i q 1).val = (i 1).val := by
  unfold DotDims.rhsIdx
  rw [dif_neg (show ¬(1 : Fin S50x128.rank) ∈ dot_S4000x50_S50x128_S4000x128_1_0_0_1_n_n.rhsBatch by decide), dif_pos (show (1 : Fin S50x128.rank) ∈ dot_S4000x50_S50x128_S4000x128_1_0_0_1_n_n.rhsNonContracting by decide)]
  rfl

theorem lhs_blk128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blk128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blk128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blk128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows of 50 features times the first weight matrix, into zero, read at row `p`, lane `q`:
    the sum over the 50 features. -/
theorem matmul50_apply (l : FVec Ideal S4000x50 .bf16) (r : FVec Ideal S50x128 .bf16) (p : Fin 4000) (q : Fin 128) :
    (matmul dot_S4000x50_S50x128_S4000x128_1_0_0_1_n_n none l r (constant S4000x128 .f32 0x00000000#32) : FVec Ideal S4000x128 .f32) (ix2 p q)
      = ∑ k : Fin 50, l (ix2 p k) * r (ix2 k q) := by
  show FloatOps.matmul dot_S4000x50_S50x128_S4000x128_1_0_0_1_n_n none l r (constant S4000x128 .f32 0x00000000#32) (ix2 p q) = _
  rw [Ideal.matmul_constant_zero_apply, ← Equiv.sum_comp (ValueIdx.contrEquiv1 dot_S4000x50_S50x128_S4000x128_1_0_0_1_n_n 50 rfl rfl).symm]
  refine Finset.sum_congr rfl fun k _ => ?_
  have hk := ValueIdx.contrEquiv1_symm_val dot_S4000x50_S50x128_S4000x128_1_0_0_1_n_n 50 rfl rfl k
  have el : dot_S4000x50_S50x128_S4000x128_1_0_0_1_n_n.lhsIdx (ix2 p q) ((ValueIdx.contrEquiv1 dot_S4000x50_S50x128_S4000x128_1_0_0_1_n_n 50 rfl rfl).symm k) = ix2 p k := funext fun a => Fin.ext (by
    match a with
    | ⟨0, _⟩ => exact lhs_blk50_0 _ _
    | ⟨1, _⟩ => exact (lhs_blk50_1 _ _).trans hk)
  have er : dot_S4000x50_S50x128_S4000x128_1_0_0_1_n_n.rhsIdx (ix2 p q) ((ValueIdx.contrEquiv1 dot_S4000x50_S50x128_S4000x128_1_0_0_1_n_n 50 rfl rfl).symm k) = ix2 k q := funext fun a => Fin.ext (by
    match a with
    | ⟨0, _⟩ => exact (rhs_blk50_0 _ _).trans hk
    | ⟨1, _⟩ => exact rhs_blk50_1 _ _)
  rw [el, er]

/-- A block of 4000 rows of 128 hidden values times the second weight matrix, into zero, read at row `p`, lane `q`:
    the sum over the 128 hidden values. -/
theorem matmul128_apply (l : FVec Ideal S4000x128 .bf16) (r : FVec Ideal S128x128 .bf16) (p : Fin 4000) (q : Fin 128) :
    (matmul dot_S4000x128_S128x128_S4000x128_1_0_0_1_n_n none l r (constant S4000x128 .f32 0x00000000#32) : FVec Ideal S4000x128 .f32) (ix2 p q)
      = ∑ k : Fin 128, l (ix2 p k) * r (ix2 k q) := by
  show FloatOps.matmul dot_S4000x128_S128x128_S4000x128_1_0_0_1_n_n none l r (constant S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_blk128_0 _ _
    | ⟨1, _⟩ => exact (lhs_blk128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_blk128_0 _ _).trans hk
    | ⟨1, _⟩ => exact rhs_blk128_1 _ _)
  rw [el, er]

/-! ## The filter network's row, entry by entry -/

/-- Lane `q` of the filter network on one edge's 50 radial features `a`:
    `∑ₖ tanh (∑ⱼ aⱼ · W₁ⱼₖ + b₁ₖ) · W₂ₖq + b₂q`. -/
def netAt (a : Fin 50 → Ideal .f32) (W₁ : FVec Ideal S50x128 .f32) (b₁ : FVec Ideal S128 .f32)
    (W₂ : FVec Ideal S128x128 .f32) (b₂ : FVec Ideal S128 .f32) (q : Fin 128) : Ideal .f32 :=
  (∑ k : Fin 128, Ideal.tanh ((∑ j : Fin 50, a j * W₁ (ix2 j k)) + b₁ (ix1 k)) * W₂ (ix2 k q)) + b₂ (ix1 q)

/-- A bias vector viewed as one row and spread over the 4000 rows of a block reads the bias at the lane. -/
theorem biasBlk_apply (b : Vec Ideal S128 .f32) (p : Fin 4000) (q : Fin 128) :
    (broadcastTo S4000x128 (shapeCast S1x128 b shapeCasts_S128_S1x128 : FVec Ideal S1x128 .f32) broadcasts_S1x128_S4000x128 : FVec Ideal S4000x128 .f32) (ix2 p q)
      = b (ix1 q) := by
  rw [broadcastTo_1b_ab_apply, shapeCast_a_1a_apply]

/-- The body's hidden layer on a block, at row `p`, hidden unit `k`. -/
theorem hiddenBlk_apply (x0 : Vec Ideal S4000x50 .f32) (x2 : Vec Ideal S50x128 .f32) (x5 : Vec Ideal S128 .f32) (p : Fin 4000) (k : Fin 128) :
    (tanh (addf (matmul dot_S4000x50_S50x128_S4000x128_1_0_0_1_n_n none (truncf .bf16 x0 bitsLt_bf16_f32) (truncf .bf16 x2 bitsLt_bf16_f32) (constant S4000x128 .f32 0x00000000#32))
        (broadcastTo S4000x128 (shapeCast S1x128 x5 shapeCasts_S128_S1x128 : FVec Ideal S1x128 .f32) broadcasts_S1x128_S4000x128)) : FVec Ideal S4000x128 .f32) (ix2 p k)
      = Ideal.tanh ((∑ j : Fin 50, x0 (ix2 p j) * x2 (ix2 j k)) + x5 (ix1 k)) := by
  show Ideal.tanh (_ + _) = _
  rw [matmul50_apply, biasBlk_apply]
  rfl

/-- THE BODY'S STORED VALUE at row `p`, lane `q` of the block: the filter network on the row's features, times the
    envelope of the row's edge length. -/
theorem pay_apply (x0 : Vec Ideal S4000x50 .f32) (x2 : Vec Ideal S50x128 .f32) (x5 : Vec Ideal S128 .f32) (x10 : Vec Ideal S128x128 .f32)
    (x14 : Vec Ideal S128 .f32) (x18 : Vec Ideal S4000x1 .f32) (p : Fin 4000) (q : Fin 128) :
    k0_pay1 x0 x2 x5 x10 x14 x18 (ix2 p q)
      = netAt (fun j => x0 (ix2 p j)) x2 x5 x10 x14 q * Envelope.envAt (x18 (ix2 p 0)) := by
  have hk : k0_pay1 x0 x2 x5 x10 x14 x18
      = mulf (addf (matmul dot_S4000x128_S128x128_S4000x128_1_0_0_1_n_n none
          (truncf .bf16 (tanh (addf (matmul dot_S4000x50_S50x128_S4000x128_1_0_0_1_n_n none (truncf .bf16 x0 bitsLt_bf16_f32) (truncf .bf16 x2 bitsLt_bf16_f32) (constant S4000x128 .f32 0x00000000#32))
            (broadcastTo S4000x128 (shapeCast S1x128 x5 shapeCasts_S128_S1x128 : FVec Ideal S1x128 .f32) broadcasts_S1x128_S4000x128)) : FVec Ideal S4000x128 .f32) bitsLt_bf16_f32)
          (truncf .bf16 x10 bitsLt_bf16_f32) (constant S4000x128 .f32 0x00000000#32))
        (broadcastTo S4000x128 (shapeCast S1x128 x14 shapeCasts_S128_S1x128 : FVec Ideal S1x128 .f32) broadcasts_S1x128_S4000x128))
        (Envelope.kernelCol x18) := rfl
  rw [hk, mulf_apply, addf_apply, Envelope.kernelCol_apply, matmul128_apply, biasBlk_apply]
  unfold netAt
  refine congrArg₂ (· * ·) (congrArg₂ (· + ·) (Finset.sum_congr rfl fun k _ => ?_) rfl) rfl
  show (tanh _ : FVec Ideal S4000x128 .f32) (ix2 p k) * x10 (ix2 k q) = _
  rw [hiddenBlk_apply]

/-! ## The reference's filter network at an index -/

section Ref
open Cert.ReferenceIdeal.Read

theorem lidx4_eq (e : Fin 1600000) (k : Fin 128) (j : Fin 50) : lidx_main_v4 (ix2 e k) j = ix2 e j :=
  funext fun a => Fin.ext (by match a with | ⟨0, _⟩ => rfl | ⟨1, _⟩ => rfl)
theorem ridx4_eq (e : Fin 1600000) (k : Fin 128) (j : Fin 50) : ridx_main_v4 (ix2 e k) j = ix2 j k :=
  funext fun a => Fin.ext (by match a with | ⟨0, _⟩ => rfl | ⟨1, _⟩ => rfl)
theorem lidx9_eq (e : Fin 1600000) (q k : Fin 128) : lidx_main_v9 (ix2 e q) k = ix2 e k :=
  funext fun a => Fin.ext (by match a with | ⟨0, _⟩ => rfl | ⟨1, _⟩ => rfl)
theorem ridx9_eq (e : Fin 1600000) (q k : Fin 128) : ridx_main_v9 (ix2 e q) k = ix2 k q :=
  funext fun a => Fin.ext (by match a with | ⟨0, _⟩ => rfl | ⟨1, _⟩ => rfl)
theorem bias1_idx (e : Fin 1600000) (k : Fin 128) : idx_main_v5 (idx_main_v6 (ix2 e k)) = ix1 k :=
  funext fun a => Fin.ext (by match a with | ⟨0, _⟩ => rfl)
theorem bias2_idx (e : Fin 1600000) (q : Fin 128) : idx_main_v10 (idx_main_v11 (ix2 e q)) = ix1 q :=
  funext fun a => Fin.ext (by match a with | ⟨0, _⟩ => rfl)

/-- The reference's filter network at edge `e`, lane `q`. -/
theorem filterNet_apply (A : FVec Ideal Cert.ReferenceIdeal.S1600000x50 .f32) (W₁ : FVec Ideal Cert.ReferenceIdeal.S50x128 .f32)
    (b₁ : FVec Ideal Cert.ReferenceIdeal.S128 .f32) (W₂ : FVec Ideal Cert.ReferenceIdeal.S128x128 .f32) (b₂ : FVec Ideal Cert.ReferenceIdeal.S128 .f32)
    (e : Fin 1600000) (q : Fin 128) :
    Cert.Stage.filterNet (F := Ideal) A W₁ b₁ W₂ b₂ (ix2 e q) = netAt (fun j => A (ix2 e j)) W₁ b₁ W₂ b₂ q := by
  have h : Cert.Stage.filterNet (F := Ideal) A W₁ b₁ W₂ b₂ = val_main_v12 (F := Ideal) A W₁ b₁ W₂ b₂ := rfl
  rw [h, val_main_v12_apply, val_main_v9_apply, val_main_v11_apply, val_main_v10_apply, bias2_idx]
  unfold netAt
  refine congrArg₂ (· + ·) (Finset.sum_congr rfl fun k _ => ?_) rfl
  rw [lidx9_eq, ridx9_eq, val_main_v8_apply, val_main_v7_apply, val_main_v4_apply, val_main_v6_apply, val_main_v5_apply, bias1_idx]
  simp only [lidx4_eq, ridx4_eq]
  rfl

/-- The reference's edge filter at edge `e`, lane `q`. -/
theorem edgeFilter_apply (d : FVec Ideal Cert.ReferenceIdeal.S1600000 .f32) (A : FVec Ideal Cert.ReferenceIdeal.S1600000x50 .f32) (W₁ : FVec Ideal Cert.ReferenceIdeal.S50x128 .f32)
    (b₁ : FVec Ideal Cert.ReferenceIdeal.S128 .f32) (W₂ : FVec Ideal Cert.ReferenceIdeal.S128x128 .f32) (b₂ : FVec Ideal Cert.ReferenceIdeal.S128 .f32)
    (e : Fin 1600000) (q : Fin 128) :
    Cert.Stage.edgeFilter (F := Ideal) d A W₁ b₁ W₂ b₂ (ix2 e q)
      = netAt (fun j => A (ix2 e j)) W₁ b₁ W₂ b₂ q * Envelope.envAt (d (ix1 e)) := by
  unfold Cert.Stage.edgeFilter
  rw [mulf_apply, filterNet_apply, Envelope.stageCol_apply]

end Ref

/-! ## From blocks to the array -/

theorem zeroOff2 : (![0, 0] : Fin 2 → Nat) = fun _ => 0 := funext fun a => by fin_cases a <;> rfl
theorem zeroOff1 : (![0] : Fin 1 → Nat) = fun _ => 0 := funext fun a => by fin_cases a; rfl

/-- The block indices over the grid: the two row windows and the output window sit at block row `t`, column block 0;
    the four parameter windows at block 0 on every axis. -/
theorem blockIndex_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Per point, over any blocks: where the feature block's row `p` is row `e` of the feature array and the length block's
    row `p` is the length of edge `e`, the body's stored value at `(p, q)` is the edge filter at `(e, q)`. -/
theorem pay_eq_edgeFilter (x0 : Vec Ideal S4000x50 .f32) (x1 : Vec Ideal S4000x1 .f32) (W₁ : Vec Ideal S50x128 .f32) (b₁ : Vec Ideal S128 .f32)
    (W₂ : Vec Ideal S128x128 .f32) (b₂ : Vec Ideal S128 .f32) (d : FVec Ideal S1600000 .f32) (A : FVec Ideal S1600000x50 .f32)
    (e : Fin 1600000) (p : Fin 4000) (q : Fin 128)
    (hA : ∀ j : Fin 50, x0 (ix2 p j) = A (ix2 e j)) (hd : x1 (ix2 p 0) = d (ix1 e)) :
    k0_pay1 x0 W₁ b₁ W₂ b₂ x1 (ix2 p q) = Cert.Stage.edgeFilter (F := Ideal) d A W₁ b₁ W₂ b₂ (ix2 e q) := by
  rw [pay_apply, edgeFilter_apply, hd, show (fun j => x0 (ix2 p j)) = fun j => A (ix2 e j) from funext hA]

section Blocks
variable (V : (c : Dev nD) → (b : Ref sig .tc) → Buf (Elt Ideal) ((c : Thread nD τ).loc b)) (c : Dev nD)

/-- The feature window's block at point `t` is rows `4000 t … 4000 t + 3999` of the feature array. -/
theorem featBlk_apply (t : Fin cfg0.N) (p : Fin 4000) (j : Fin 50) (he : 4000 * t.val + p.val < 1600000) :
    (iblk0 V c 0 t : Vec Ideal S4000x50 .f32) (ix2 p j) = (V c main_arg3 : Vec Ideal S1600000x50 .f32) (ix2 ⟨4000 * t.val + p.val, he⟩ j) := by
  obtain ⟨f00, f01, -⟩ := blockIndex_facts t
  unfold iblk0
  rw [View.read_apply]
  show V c main_arg3 _ = V c main_arg3 _
  congr 1
  funext a
  apply Fin.ext
  match a with
  | ⟨0, _⟩ => show win0_0.index t (0 : Fin 2) * 4000 + 1 * p.val = 4000 * t.val + p.val; rw [f00]; omega
  | ⟨1, _⟩ => show win0_0.index t (1 : Fin 2) * 50 + 1 * j.val = j.val; rw [f01]; omega

/-- The length window's block at point `t` is the lengths of edges `4000 t … 4000 t + 3999`. -/
theorem lenBlk_apply (d : FVec Ideal S1600000 .f32) (h0 : V c main_v0 = shapeCast S1600000x1 d shapeCasts_S1600000_S1600000x1)
    (t : Fin cfg0.N) (p : Fin 4000) (he : 4000 * t.val + p.val < 1600000) :
    (iblk0 V c 1 t : Vec Ideal S4000x1 .f32) (ix2 p 0) = d (ix1 ⟨4000 * t.val + p.val, he⟩) := by
  obtain ⟨-, -, f10, f11, -⟩ := blockIndex_facts t
  unfold iblk0
  rw [View.read_apply]
  show V c main_v0 _ = _
  rw [h0]
  refine shapeCast_apply d shapeCasts_S1600000_S1600000x1 _ (ix1 ⟨4000 * t.val + p.val, he⟩) ?_
  rw [Shape.rowMajor_val_two, Shape.rowMajor_val_one]
  show 4000 * t.val + p.val = (win0_1.index t (0 : Fin 2) * 4000 + 1 * p.val) * 1 + (win0_1.index t (1 : Fin 2) * 1 + 1 * 0)
  rw [f10, f11]; omega

/-- The parameter windows' blocks are their whole arrays, at every point. -/
theorem w1Blk_eq (t : Fin cfg0.N) : (iblk0 V c 2 t : Vec Ideal S50x128 .f32) = (V c main_arg4 : Vec Ideal S50x128 .f32) := by
  obtain ⟨-, -, -, -, f20, f21, -⟩ := blockIndex_facts t
  funext x
  unfold iblk0
  rw [View.read_apply]
  show V c main_arg4 _ = V c main_arg4 _
  congr 1
  funext a
  apply Fin.ext
  match a with
  | ⟨0, _⟩ => show win0_2.index t (0 : Fin 2) * 50 + 1 * (x 0).val = (x 0).val; rw [f20]; omega
  | ⟨1, _⟩ => show win0_2.index t (1 : Fin 2) * 128 + 1 * (x 1).val = (x 1).val; rw [f21]; omega
theorem b1Blk_eq (t : Fin cfg0.N) : (iblk0 V c 3 t : Vec Ideal S128 .f32) = (V c main_arg5 : Vec Ideal S128 .f32) := by
  obtain ⟨-, -, -, -, -, -, f30, -⟩ := blockIndex_facts t
  funext x
  unfold iblk0
  rw [View.read_apply]
  show V c main_arg5 _ = V c main_arg5 _
  congr 1
  funext a
  apply Fin.ext
  match a with
  | ⟨0, _⟩ => show win0_3.index t (0 : Fin 1) * 128 + 1 * (x 0).val = (x 0).val; rw [f30]; omega
theorem w2Blk_eq (t : Fin cfg0.N) : (iblk0 V c 4 t : Vec Ideal S128x128 .f32) = (V c main_arg6 : Vec Ideal S128x128 .f32) := by
  obtain ⟨-, -, -, -, -, -, -, f40, f41, -⟩ := blockIndex_facts t
  funext x
  unfold iblk0
  rw [View.read_apply]
  show V c main_arg6 _ = V c main_arg6 _
  congr 1
  funext a
  apply Fin.ext
  match a with
  | ⟨0, _⟩ => show win0_4.index t (0 : Fin 2) * 128 + 1 * (x 0).val = (x 0).val; rw [f40]; omega
  | ⟨1, _⟩ => show win0_4.index t (1 : Fin 2) * 128 + 1 * (x 1).val = (x 1).val; rw [f41]; omega
theorem b2Blk_eq (t : Fin cfg0.N) : (iblk0 V c 5 t : Vec Ideal S128 .f32) = (V c main_arg7 : Vec Ideal S128 .f32) := by
  obtain ⟨-, -, -, -, -, -, -, -, -, f50, -⟩ := blockIndex_facts t
  funext x
  unfold iblk0
  rw [View.read_apply]
  show V c main_arg7 _ = V c main_arg7 _
  congr 1
  funext a
  apply Fin.ext
  match a with
  | ⟨0, _⟩ => show win0_5.index t (0 : Fin 1) * 128 + 1 * (x 0).val = (x 0).val; rw [f50]; omega

/-- WHAT POINT `t` WRITES BACK is block `t` of the edge filter of the arrays as the region finds them. -/
theorem writeBack_eq (d : FVec Ideal S1600000 .f32) (h0 : V c main_v0 = shapeCast S1600000x1 d shapeCasts_S1600000_S1600000x1) (t : Fin cfg0.N) :
    (dat0 V c).flushed 6 t = ((cfg0.win 6).blk t).view.read (Elt Ideal)
      (Cert.Stage.edgeFilter (F := Ideal) d (V c main_arg3) (V c main_arg4) (V c main_arg5) (V c main_arg6) (V c main_arg7)) := by
  show (cfg0.win 6).cut (grid0.coords t) ((dat0 V c).after 6 t) = _
  rw [after0_6]
  unfold out0_6
  rw [View.canon_unit_zero zeroOff2]
  simp only [View.ld_unit_zero (S := S4000x50) zeroOff2, View.ld_unit_zero (S := S50x128) zeroOff2, View.ld_unit_zero (S := S128) zeroOff1,
    View.ld_unit_zero (S := S128x128) zeroOff2, View.ld_unit_zero (S := S4000x1) zeroOff2]
  rw [w1Blk_eq V c t, b1Blk_eq V c t, w2Blk_eq V c t, b2Blk_eq V c t]
  funext j
  have ht : t.val < 400 := lt_of_lt_of_eq t.isLt N_0
  have hp : (j 0).val < 4000 := (j 0).isLt
  have hq : (j 1).val < 128 := (j 1).isLt
  have he : 4000 * t.val + (j 0).val < 1600000 := by omega
  obtain ⟨-, -, -, -, -, -, -, -, -, -, f60, f61⟩ := blockIndex_facts t
  have hL : (cfg0.win 6).xinj (grid0.coords t) j = ix2 (⟨(j 0).val, hp⟩ : Fin 4000) (⟨(j 1).val, hq⟩ : Fin 128) :=
    funext fun a => by match a with | ⟨0, _⟩ => rfl | ⟨1, _⟩ => rfl
  have hR : ((cfg0.win 6).blk t).view.emb j = ix2 (⟨4000 * t.val + (j 0).val, he⟩ : Fin 1600000) (⟨(j 1).val, hq⟩ : Fin 128) := by
    funext a
    apply Fin.ext
    match a with
    | ⟨0, _⟩ => show win0_6.index t (0 : Fin 2) * 4000 + 1 * (j 0).val = 4000 * t.val + (j 0).val; rw [f60]; omega
    | ⟨1, _⟩ => show win0_6.index t (1 : Fin 2) * 128 + 1 * (j 1).val = (j 1).val; rw [f61]; omega
  show k0_pay1 (iblk0 V c 0 t) (V c main_arg4) (V c main_arg5) (V c main_arg6) (V c main_arg7) (iblk0 V c 1 t) ((cfg0.win 6).xinj (grid0.coords t) j)
    = Cert.Stage.edgeFilter (F := Ideal) d (V c main_arg3) (V c main_arg4) (V c main_arg5) (V c main_arg6) (V c main_arg7) (((cfg0.win 6).blk t).view.emb j)
  rw [hL, hR]
  exact pay_eq_edgeFilter _ _ _ _ _ _ d _ _ _ _ (fun k => featBlk_apply V c t _ k he) (lenBlk_apply V c d h0 t _ he)

/-- An index of the output array is in point `t`'s block iff each coordinate is in the block's range on its axis. -/
theorem mem_outBlock_iff (t : Fin cfg0.N) (i : S1600000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v1).slice (win0_6.rect t)).set ↔ _
  rw [View.set_slice_whole, Rect.mem_set_unit]
  exact Iff.rfl

/-- Every index of the output array lies in the block of the point its row falls to: row `r` in block `r / 4000`. -/
theorem rows_covered (i : S1600000x128.Idx) : ∃ t : Fin cfg0.N, (cfg0.win 6).flush t = true ∧ i ∈ ((cfg0.win 6).blk t).view.set := by
  have hi0 : (i 0).val < 1600000 := (i 0).isLt
  have hi1 : (i 1).val < 128 := (i 1).isLt
  obtain ⟨t, ht⟩ : ∃ t : Fin cfg0.N, t.val = (i 0).val / 4000 :=
    ⟨⟨(i 0).val / 4000, lt_of_lt_of_eq (show (i 0).val / 4000 < 400 by omega) N_0.symm⟩, rfl⟩
  obtain ⟨-, -, -, -, -, -, -, -, -, -, f60, f61⟩ := blockIndex_facts t
  refine ⟨t, flush0_6 t, ?_⟩
  rw [mem_outBlock_iff]
  intro a
  match a with
  | ⟨0, _⟩ => show win0_6.index t (0 : Fin 2) * 4000 ≤ (i 0).val ∧ (i 0).val < win0_6.index t (0 : Fin 2) * 4000 + 4000; rw [f60, ht]; omega
  | ⟨1, _⟩ => show win0_6.index t (1 : Fin 2) * 128 ≤ (i 1).val ∧ (i 1).val < win0_6.index t (1 : Fin 2) * 128 + 128; rw [f61]; omega

end Blocks

/-- The edge-filter region: after its run the output array is the edge filter of the region's input arrays, the
    edge lengths entering as the column `V c main_v0`, which is the reshaped length vector `d`. -/
theorem arr (V : (c : Dev nD) → (b : Ref sig .tc) → Buf (Elt Ideal) ((c : Thread nD τ).loc b)) (c : Dev nD) (d : FVec Ideal S1600000 .f32)
    (h0 : V c main_v0 = shapeCast S1600000x1 d shapeCasts_S1600000_S1600000x1) :
    (dat0 V c).arrAt 6 cfg0.N
      = Cert.Stage.edgeFilter (F := Ideal) d (V c main_arg3) (V c main_arg4) (V c main_arg5) (V c main_arg6) (V c main_arg7) :=
  (dat0 V c).arrAt_eq_of_cover 6 _ (fun t _ => writeBack_eq V c d h0 t) rows_covered

end Cert.KernelIdeal.FilterValue

end
-- ==== Proof.FinalValue.lean ====
import proofs.«402260_j77232101916865_1_alg».proof.Proof.Gen.KernelIdeal.Frame
import proofs.«402260_j77232101916865_1_alg».proof.Proof.Stage
import Idealize.ShloMosaic.Lib.Pipeline.Value
import Idealize.ShloMosaic.Lib.ValueIdx
import Idealize.ShloMosaic.PureOps.Ideal.Laws
import Idealize.ShloMosaic.Lib.ValueLayout
import proofs.«402260_j77232101916865_1_alg».proof.Proof.Gen.ReferenceIdeal.Read

noncomputable section

open Idealize.ShloMosaic Idealize.ShloMosaic.TcCoe Idealize.SL.Sem
open Idealize.ShloMosaic.Pipeline (Dat)
open Idealize.ShloMosaic.ValueIdx
open scoped BigOperators

namespace Cert.KernelIdeal.FinalValue

open Cert.KernelIdeal Cert.KernelIdeal.Gen

/-! ## The two-layer map at one row -/

/-- One layer at a row `x`: column `j` of `x · W + b`. -/
def layer (x : Fin 128 → EReal) (W : (⟨2, ![128, 128]⟩ : Shape).Idx → EReal) (b : (⟨1, ![128]⟩ : Shape).Idx → EReal)
    (j : Fin 128) : EReal :=
  (∑ k : Fin 128, x k * W (ix2 k j)) + b (ix1 j)

/-- The two-layer map at a row: `tanh (x · U + p) · W + q`. -/
def mlpRow (x : Fin 128 → EReal) (U : (⟨2, ![128, 128]⟩ : Shape).Idx → EReal) (p : (⟨1, ![128]⟩ : Shape).Idx → EReal)
    (W : (⟨2, ![128, 128]⟩ : Shape).Idx → EReal) (q : (⟨1, ![128]⟩ : Shape).Idx → EReal) (j : Fin 128) : EReal :=
  layer (fun k => Ideal.tanh (layer x U p k)) W q j

/-! ## The block product read at an index -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product into zero, at row `r` and column `j`: the sum over the 128 contracted coordinates. -/
theorem matmul_blk_apply {φ₁ φ₂ : FTy} (l : FVec Ideal S5000x128 φ₁) (w : FVec Ideal S128x128 φ₂) (r : Fin 5000) (j : Fin 128) :
    matmul dot_S5000x128_S128x128_S5000x128_1_0_0_1_n_n none l w (constant S5000x128 .f32 0x00000000#32) (ix2 r j)
      = ∑ k : Fin 128, l (ix2 r k) * w (ix2 k j) := by
  show FloatOps.matmul dot_S5000x128_S128x128_S5000x128_1_0_0_1_n_n none l w (constant S5000x128 .f32 0x00000000#32) (ix2 r j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_blk_0 _ _).trans hk
    | ⟨1, _⟩ => exact rhs_blk_1 _ _)
  rw [el, er]

/-- The whole array's product on the host, at row `r` and column `j`: the same sum. -/
theorem dot_arr_apply (l : FVec Ideal Cert.ReferenceIdeal.S100000x128 .f32) (w : FVec Ideal Cert.ReferenceIdeal.S128x128 .f32) (r : Fin 100000) (j : Fin 128) :
    Host.dotGeneral Cert.ReferenceIdeal.dot_S100000x128_S128x128_S100000x128_1_0_0_1_n_n none l w (ix2 r j)
      = ∑ k : Fin 128, l (ix2 r k) * w (ix2 k j) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r j) ((contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.Read.lhs_main_v27_0 _ _
    | ⟨1, _⟩ => exact (Cert.ReferenceIdeal.Read.lhs_main_v27_1 _ _).trans hk)
  have er : Cert.ReferenceIdeal.dot_S100000x128_S128x128_S100000x128_1_0_0_1_n_n.rhsIdx (ix2 r j) ((contrEquiv1 Cert.ReferenceIdeal.dot_S100000x128_S128x128_S100000x128_1_0_0_1_n_n 128 rfl rfl).symm k) = ix2 k j := funext fun a => Fin.ext (by
    match a with
    | ⟨0, _⟩ => exact (Cert.ReferenceIdeal.Read.rhs_main_v27_0 _ _).trans hk
    | ⟨1, _⟩ => exact Cert.ReferenceIdeal.Read.rhs_main_v27_1 _ _)
  rw [el, er]

/-! ## The bias, on either side, read at an index -/

/-- The bias cast to one row and repeated down the block reads the bias at the column. -/
theorem bias_blk_apply (b : FVec Ideal S128 .f32) (r : Fin 5000) (j : Fin 128) :
    broadcastTo S5000x128 (shapeCast S1x128 b shapeCasts_S128_S1x128) broadcasts_S1x128_S5000x128 (ix2 r j) = b (ix1 j) :=
  (broadcastTo_1b_ab_apply _ broadcasts_S1x128_S5000x128 r j).trans (shapeCast_a_1a_apply b shapeCasts_S128_S1x128 0 j)

/-- The bias placed on the column axis of one row and that row on every row of the array reads the bias at the column. -/
theorem bias_arr_apply (b : FVec Ideal Cert.ReferenceIdeal.S128 .f32) (r : Fin 100000) (j : Fin 128) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r j) = b (ix1 j) := by
  refine (broadcastInDim_apply _ Cert.ReferenceIdeal.Gen.bcast_S1x128_S100000x128_0_1 _ (ix2 r j) (ix2 (0 : Fin 1) j) (fun a => ?_)).trans
    (broadcastInDim_apply _ Cert.ReferenceIdeal.Gen.bcast_S128_S1x128_1 b (ix2 (0 : Fin 1) j) (ix1 j) (fun a => ?_))
  · match a with
    | ⟨0, _⟩ => show 0 = if (1 : Nat) = 1 then 0 else r.val; rw [if_pos rfl]
    | ⟨1, _⟩ => show j.val = if (128 : Nat) = 1 then 0 else j.val; rw [if_neg (by decide)]
  · match a with
    | ⟨0, _⟩ => show j.val = if (128 : Nat) = 1 then 0 else j.val; rw [if_neg (by decide)]

/-! ## Both sides at an index -/

/-- The block's hyperbolic tangent at an index is the extended reals' one of the element … -/
theorem tanh_apply {s : Shape} {φ : FTy} (a : FVec Ideal s φ) (i : s.Idx) : tanh a i = Ideal.tanh (a i) := rfl
/-- … and so is the host's. -/
theorem hostTanh_apply {s : Shape} {φ : FTy} (a : FVec Ideal s φ) (i : s.Idx) : Host.tanh a i = Ideal.tanh (a i) := rfl

/-- The body's result at row `r`, column `j` of the block: the two-layer map of row `r` of the loaded block. -/
theorem pay_apply (x0 : Vec Ideal S5000x128 .f32) (x3 : Vec Ideal S128x128 .f32) (x7 : Vec Ideal S128 .f32)
    (x13 : Vec Ideal S128x128 .f32) (x17 : Vec Ideal S128 .f32) (r : Fin 5000) (j : Fin 128) :
    k2_pay1 (F := Ideal) x0 x3 x7 x13 x17 (ix2 r j) = mlpRow (fun k => x0 (ix2 r k)) x3 x7 x13 x17 j := by
  unfold k2_pay1 mlpRow layer
  simp only [shapeCast_self]
  rw [addf_apply, matmul_blk_apply, bias_blk_apply]
  refine congrArg (· + x17 (ix1 j)) (Finset.sum_congr rfl fun k _ => ?_)
  rw [truncf_apply, truncf_apply, tanh_apply, addf_apply, matmul_blk_apply, bias_blk_apply]
  rfl

/-- The stage function at row `r`, column `j` of the array: the two-layer map of row `r` of its first operand. -/
theorem nodeMlp_apply (G : FVec Ideal Cert.ReferenceIdeal.S100000x128 .f32) (U : FVec Ideal Cert.ReferenceIdeal.S128x128 .f32)
    (p : FVec Ideal Cert.ReferenceIdeal.S128 .f32) (W : FVec Ideal Cert.ReferenceIdeal.S128x128 .f32)
    (q : FVec Ideal Cert.ReferenceIdeal.S128 .f32) (r : Fin 100000) (j : Fin 128) :
    Cert.Stage.nodeMlp (F := Ideal) G U p W q (ix2 r j) = mlpRow (fun k => G (ix2 r k)) U p W q j := by
  unfold Cert.Stage.nodeMlp mlpRow layer
  rw [addf_apply, dot_arr_apply, bias_arr_apply]
  refine congrArg (· + q (ix1 j)) (Finset.sum_congr rfl fun k _ => ?_)
  rw [hostTanh_apply, addf_apply, dot_arr_apply, bias_arr_apply]

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-- What the body leaves in the output's staging buffer is its one store's payload of the loaded blocks. -/
theorem out_eq (x0 : Vec Ideal S5000x128 .f32) (x1 : Vec Ideal S128x128 .f32) (x2 : Vec Ideal S128 .f32)
    (x3 : Vec Ideal S128x128 .f32) (x4 : Vec Ideal S128 .f32) :
    out2_5 (F := Ideal) x0 x1 x2 x3 x4 = k2_pay1 x0 x1 x2 x3 x4 := by
  unfold out2_5
  rw [View.canon_unit_zero hz2]
  simp only [View.ld_unit_zero (S := S5000x128) hz2, View.ld_unit_zero (S := S128x128) hz2, View.ld_unit_zero (S := S128) hz1]

/-- The index maps over the grid: the two row-block windows sit at block `(t, 0)`, the four whole-array windows at block zero. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 :=
  (by decide +kernel : ∀ t : Fin grid2.N, _)

variable (V : (c : Dev nD) → (b : Ref sig .tc) → Buf (Elt Ideal) ((c : Thread nD τ).loc b))

/-- Row `r` of the row block at point `t` is row `5000 t + r` of the array. -/
theorem blk0_apply (c : Dev nD) (t : Fin cfg2.N) (r : Fin 5000) (k : Fin 128) (R : Fin 100000) (hR : R.val = t.val * 5000 + r.val) :
    (iblk2 V c 0 t : Vec Ideal S5000x128 .f32) (ix2 r k) = (V c main_v12 : S100000x128.Idx → EReal) (ix2 R k) := by
  unfold iblk2
  rw [View.read_apply]
  show V c main_v12 _ = V c main_v12 _
  congr 1
  funext a; apply Fin.ext
  match a with
  | ⟨0, _⟩ => show win2_0.index t (0 : Fin 2) * 5000 + 1 * r.val = R.val; rw [(idx_facts t).1, hR]; omega
  | ⟨1, _⟩ => show win2_0.index t (1 : Fin 2) * 128 + 1 * k.val = k.val; rw [(idx_facts t).2.1]; omega

/-- A whole-array window's block is its array. -/
theorem blk1_eq (c : Dev nD) (t : Fin cfg2.N) : (iblk2 V c 1 t : Vec Ideal S128x128 .f32) = V c main_v13 := by
  funext y
  unfold iblk2
  rw [View.read_apply]
  show V c main_v13 _ = V c main_v13 y
  congr 1
  funext a; apply Fin.ext
  match a with
  | ⟨0, _⟩ => show win2_1.index t (0 : Fin 2) * 128 + 1 * (y 0).val = (y 0).val; rw [(idx_facts t).2.2.2.2.1]; omega
  | ⟨1, _⟩ => show win2_1.index t (1 : Fin 2) * 128 + 1 * (y 1).val = (y 1).val; rw [(idx_facts t).2.2.2.2.2.1]; omega
theorem blk2_eq (c : Dev nD) (t : Fin cfg2.N) : (iblk2 V c 2 t : Vec Ideal S128 .f32) = V c main_arg10 := by
  funext y
  unfold iblk2
  rw [View.read_apply]
  show V c main_arg10 _ = V c main_arg10 y
  congr 1
  funext a; apply Fin.ext
  match a with
  | ⟨0, _⟩ => show win2_2.index t (0 : Fin 1) * 128 + 1 * (y 0).val = (y 0).val; rw [(idx_facts t).2.2.2.2.2.2.1]; omega
theorem blk3_eq (c : Dev nD) (t : Fin cfg2.N) : (iblk2 V c 3 t : Vec Ideal S128x128 .f32) = V c main_v14 := by
  funext y
  unfold iblk2
  rw [View.read_apply]
  show V c main_v14 _ = V c main_v14 y
  congr 1
  funext a; apply Fin.ext
  match a with
  | ⟨0, _⟩ => show win2_3.index t (0 : Fin 2) * 128 + 1 * (y 0).val = (y 0).val; rw [(idx_facts t).2.2.2.2.2.2.2.1]; omega
  | ⟨1, _⟩ => show win2_3.index t (1 : Fin 2) * 128 + 1 * (y 1).val = (y 1).val; rw [(idx_facts t).2.2.2.2.2.2.2.2.1]; omega
theorem blk4_eq (c : Dev nD) (t : Fin cfg2.N) : (iblk2 V c 4 t : Vec Ideal S128 .f32) = V c main_arg12 := by
  funext y
  unfold iblk2
  rw [View.read_apply]
  show V c main_arg12 _ = V c main_arg12 y
  congr 1
  funext a; apply Fin.ext
  match a with
  | ⟨0, _⟩ => show win2_4.index t (0 : Fin 1) * 128 + 1 * (y 0).val = (y 0).val; rw [(idx_facts t).2.2.2.2.2.2.2.2.2]; omega

/-- What point `t` writes back is block `t` of the two-layer map of the region's input arrays. -/
theorem flushed_eq (c : Dev nD) (t : Fin cfg2.N) :
    (dat2 V c).flushed 5 t = ((cfg2.win 5).blk t).view.read (Elt Ideal)
      (Cert.Stage.nodeMlp (F := Ideal) (V c main_v12) (V c main_v13) (V c main_arg10) (V c main_v14) (V c main_arg12)) := by
  show (cfg2.win 5).cut (grid2.coords t) ((dat2 V c).after 5 t) = _
  rw [after2_5, out_eq]
  funext y
  obtain ⟨r, j, rfl⟩ : ∃ (r : Fin 5000) (j : Fin 128), y = ix2 r j := ⟨y 0, y 1, eq_ix2 y⟩
  have ht : t.val < 20 := lt_of_lt_of_eq t.isLt N_2
  have hr : r.val < 5000 := r.isLt
  obtain ⟨R, hR⟩ : ∃ R : Fin 100000, R.val = t.val * 5000 + r.val := ⟨⟨t.val * 5000 + r.val, by omega⟩, rfl⟩
  rw [View.read_apply]
  have hemb : ((cfg2.win 5).blk t).view.emb (ix2 r j) = (ix2 R j : S100000x128.Idx) := by
    funext a; apply Fin.ext
    match a with
    | ⟨0, _⟩ => show win2_5.index t (0 : Fin 2) * 5000 + 1 * r.val = R.val; rw [(idx_facts t).2.2.1, hR]; omega
    | ⟨1, _⟩ => show win2_5.index t (1 : Fin 2) * 128 + 1 * j.val = j.val; rw [(idx_facts t).2.2.2.1]; omega
  rw [hemb]
  have e0 : (fun k : Fin 128 => (iblk2 V c 0 t : Vec Ideal S5000x128 .f32) (ix2 r k))
      = fun k => (V c main_v12 : S100000x128.Idx → EReal) (ix2 R k) := funext fun k => blk0_apply V c t r k R hR
  calc k2_pay1 (F := Ideal) (iblk2 V c 0 t) (iblk2 V c 1 t) (iblk2 V c 2 t) (iblk2 V c 3 t) (iblk2 V c 4 t) (ix2 r j)
      = mlpRow (fun k => (iblk2 V c 0 t : Vec Ideal S5000x128 .f32) (ix2 r k)) (iblk2 V c 1 t) (iblk2 V c 2 t) (iblk2 V c 3 t) (iblk2 V c 4 t) j :=
        pay_apply _ _ _ _ _ r j
    _ = mlpRow (fun k => (V c main_v12 : S100000x128.Idx → EReal) (ix2 R k)) (V c main_v13) (V c main_arg10) (V c main_v14) (V c main_arg12) j := by
        rw [e0, blk1_eq, blk2_eq, blk3_eq, blk4_eq]
    _ = _ := (nodeMlp_apply _ _ _ _ _ R j).symm

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v15).slice (win2_5.rect t)).set ↔ _
  rw [View.set_slice_whole, Rect.mem_set_unit]
  exact Iff.rfl

/-- Every index of the array is in the block of the point its row falls to: row `R` in block `R / 5000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [(idx_facts t).2.2.1, ht]; omega
  | ⟨1, _⟩ =>
    show win2_5.index t (1 : Fin 2) * 128 ≤ (i 1).val ∧ (i 1).val < win2_5.index t (1 : Fin 2) * 128 + 128
    rw [(idx_facts t).2.2.2.1]; omega

/-- The final node-wise region: after its run the output array is the two-layer map of the region's input arrays. -/
theorem arr (V : (c : Dev nD) → (b : Ref sig .tc) → Buf (Elt Ideal) ((c : Thread nD τ).loc b)) (c : Dev nD) :
    (dat2 V c).arrAt 5 cfg2.N
      = Cert.Stage.nodeMlp (F := Ideal) (V c main_v12) (V c main_v13) (V c main_arg10) (V c main_v14) (V c main_arg12) :=
  (dat2 V c).arrAt_eq_of_cover 5 _ (fun t _ => flushed_eq V c t) cover

end Cert.KernelIdeal.FinalValue

end
-- ==== Proof.KernelValue.lean ====
/-
  The kernel program's result array as the stages' composition. Region by region: the node-wise linear region leaves
  `nodeLin` of the node features and the transposed first weight; the edge-filter region leaves `edgeFilter` of the
  edge lengths and the filter network's operands; between them and the last region the host takes the mapped rows at
  the source nodes — under the precondition every source index is in range, so the take is the plain gather —,
  multiplies by the edge filter and adds into the destination rows; the last region leaves `nodeMlp` of that sum.
  Composed, this is `Stage.result` of the thirteen launched arrays: the reference's term.
-/
import proofs.«402260_j77232101916865_1_alg».proof.Proof.Fold
import proofs.«402260_j77232101916865_1_alg».proof.Proof.Lin1Value
import proofs.«402260_j77232101916865_1_alg».proof.Proof.FilterValue
import proofs.«402260_j77232101916865_1_alg».proof.Proof.FinalValue

set_option maxRecDepth 16384

noncomputable section

open Idealize.ShloMosaic Idealize.ShloMosaic.TcCoe Idealize.SL.Sem

namespace Cert.KernelIdeal.Value

open Cert.KernelIdeal Cert.KernelIdeal.Gen Cert.KernelIdeal.Fold

variable (m : (ℓ : Loc nD τ sig) → Buf (Elt Ideal) ℓ) (ρ : Dev nD → PrngReg)

/-- The node-wise linear region's output: the node features times the transposed first weight. -/
theorem lin_eq (c : Dev nD) :
    (dat1 (V3 m ρ) c).arrAt 2 cfg1.N
      = Cert.Stage.nodeLin (F := Ideal) (m ((c : Thread nD τ).loc main_arg0)) (Cert.Stage.tr (F := Ideal) (m ((c : Thread nD τ).loc main_arg8))) := by
  rw [Cert.KernelIdeal.Lin1Value.arr, V3_arg0, V3_v2]
  rfl

/-- The edge-filter region's output: the edge filter of the launched lengths, radial features and filter weights. -/
theorem filter_eq (c : Dev nD) :
    (dat0 (V1 m ρ) c).arrAt 6 cfg0.N
      = Cert.Stage.edgeFilter (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.FilterValue.arr (V1 m ρ) c (m ((c : Thread nD τ).loc main_arg2)) (V1_v0 m ρ c), V1_arg3, V1_arg4, V1_arg5, V1_arg6, V1_arg7]

/-- The column built from the source row is the take's column of start indices. -/
theorem col_src (E : IVec S2x1600000 32) : colOf (Cert.KernelIdeal.TakeInRange.srcRow E) = Cert.KernelIdeal.TakeInRange.srcCol E := rfl

/-- Under the precondition the take of rows `T` at the source nodes is the plain gather at the column of start indices. -/
theorem take_gather [hP : Cert.Pre_finite_inputs.Facts] (hpre : Cert.Pre_KernelIdeal m) (c : Dev nD) (T : FVec Ideal S100000x128 .f32) :
    takeOf (F := Ideal) T (Cert.KernelIdeal.TakeInRange.srcRow (m ((c : Thread nD τ).loc main_arg1)))
      = Host.gather gather_S100000x128_S1600000x1_S1600000x128_1_0_n_n_0_1_1128 T (Cert.KernelIdeal.TakeInRange.srcCol (m ((c : Thread nD τ).loc main_arg1))) := by
  unfold takeOf takeAt
  rw [col_src]
  exact Cert.KernelIdeal.TakeInRange.take_eq m hpre c _

/-- The kernel program's result array, at the last boundary's contents, is the stages' composition of the launched arrays. -/
theorem result_eq [hP : Cert.Pre_finite_inputs.Facts] (hpre : Cert.Pre_KernelIdeal m) (c : Dev nD) :
    W8 m ρ c (Proc.devRef .tc main_v15)
      = Cert.Stage.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W8 m ρ c (Proc.devRef .tc main_v15) = (dat2 (V7 m ρ) c).arrAt 5 cfg2.N from W8_arr m ρ c 5]
  rw [Cert.KernelIdeal.FinalValue.arr, V7_v12, V7_v13, V7_arg10, V7_v14, V7_arg12, lin_eq, filter_eq, take_gather m hpre c]
  rfl

end Cert.KernelIdeal.Value

end
-- ==== Proof.lean ====
/-
  The certificate: a message-passing block — a filter network on the edges' radial features scaled by a cosine cutoff
  of the edge length, the node features mapped linearly, gathered at the source nodes, multiplied by the edge filter and
  added into the destination nodes, then a two-layer map per node — as three tiled kernel regions among host operations,
  against the plain array program. Under the precondition (finite inputs; every source index in range of the node axis)
  both programs compute, array by array, the same composition of stages (`Cert.Stage.result`): each kernel region's
  output array is its stage's whole-array function of the region's inputs (the row blocks tile the arrays and a block's
  matrix product is the rows' part of the whole product, sum by sum), the host operations between the regions are the
  stages' own, and with the source indices in range the kernel's take never fills. No law of arithmetic beyond that is
  used: the two sides are one function of the arguments.
-/
import proofs.«402260_j77232101916865_1_alg».proof.Defs
import proofs.«402260_j77232101916865_1_alg».proof.Proof.Gen.Kernel
import proofs.«402260_j77232101916865_1_alg».proof.Proof.Gen.Kernel.Frame
import proofs.«402260_j77232101916865_1_alg».proof.Proof.Gen.KernelIdeal
import proofs.«402260_j77232101916865_1_alg».proof.Proof.Gen.KernelIdeal.Frame
import proofs.«402260_j77232101916865_1_alg».proof.Proof.Gen.ReferenceIdeal
import proofs.«402260_j77232101916865_1_alg».proof.Proof.Gen.Pre_finite_inputs
import proofs.«402260_j77232101916865_1_alg».proof.Proof.RefStaged
import proofs.«402260_j77232101916865_1_alg».proof.Proof.RunResult
import proofs.«402260_j77232101916865_1_alg».proof.Proof.KernelValue

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Staged.run (F := Ideal) m ρ)

/-- Both programs end with the result array at the stages' composition of the (agreeing) arguments. -/
theorem algebraic : Cert.algebraic_KernelIdeal_ReferenceIdeal := by
  intro m ρ m' ρ' hpre hagree
  refine ⟨fun c => Cert.Stage.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Value.result_eq m ρ hpre c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Staged.run (F := Ideal) m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
